-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x64 : Shape := ⟨2, ![2097152, 64]⟩
abbrev S2097152 : Shape := ⟨1, ![2097152]⟩
abbrev S1x64 : Shape := ⟨2, ![1, 64]⟩
abbrev S_ : Shape := ⟨0, ![]⟩

class Facts : Prop where
  bcast_S_S2097152x64 : S_.BroadcastsInDim S2097152x64 (![] : Fin 0 → Fin S2097152x64.rank)
  reducesTo_S2097152x64_S_d0_1 : S2097152x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S2097152 : S_.BroadcastsInDim S2097152 (![] : Fin 0 → Fin S2097152.rank)
  reducesTo_S2097152_S_d0 : S2097152.ReducesTo [0] S_

variable [Facts]

def fn_part1 {F : FTy → Type} [FloatOps F] (main_arg1 : IVec S2097152 32) (main_v13 : IVec S_ 1) (main_v15 : IVec S2097152 1) (main_c_5 : IVec S_ 1) : IVec S_ 1 :=
  let main_v16 : IVec S_ 1 := (fun x v => Host.reduce IntOp.andi x v reducesTo_S2097152_S_d0 h_S_) main_v15 main_c_5
  let main_v17 : IVec S_ 1 := andi main_v13 main_v16
  let main_c_6 : IVec S_ 32 := constantI S_ 32 16#32
  let main_v18 : IVec S2097152 32 := broadcastInDim S2097152 ![] bcast_S_S2097152 main_c_6
  let main_v19 : IVec S2097152 1 := cmpi .slt main_arg1 main_v18
  let main_c_7 : IVec S_ 1 := constantI S_ 1 1#1
  let main_v20 : IVec S_ 1 := (fun x v => Host.reduce IntOp.andi x v reducesTo_S2097152_S_d0 h_S_) main_v19 main_c_7
  let main_v21 : IVec S_ 1 := andi main_v17 main_v20
  main_v21

def fn {F : FTy → Type} [FloatOps F] (main_arg0 : FVec F S2097152x64 .f32) (main_arg1 : IVec S2097152 32) (main_arg2 : FVec F S1x64 .f32) (main_arg3 : FVec F S1x64 .f32) : IVec S_ 1 :=
  let main_v0 : FVec F S2097152x64 .f32 := Host.absf main_arg0
  let main_cst : FVec F S_ .f32 := constant S_ .f32 0x7F800000#32
  let main_v1 : FVec F S2097152x64 .f32 := broadcastInDim S2097152x64 ![] bcast_S_S2097152x64 main_cst
  let main_v2 : IVec S2097152x64 1 := cmpf .olt main_v0 main_v1
  let main_c : IVec S_ 1 := constantI S_ 1 1#1
  let main_v3 : IVec S_ 1 := (fun x v => Host.reduce IntOp.andi x v reducesTo_S2097152x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_c_4 : IVec S_ 32 := constantI S_ 32 0#32
  let main_v14 : IVec S2097152 32 := broadcastInDim S2097152 ![] bcast_S_S2097152 main_c_4
  let main_v15 : IVec S2097152 1 := cmpi .sge main_arg1 main_v14
  let main_c_5 : IVec S_ 1 := constantI S_ 1 1#1
  fn_part1 (F := F) main_arg1 main_v13 main_v15 main_c_5
-- ==== Kernel.lean ====
abbrev S2097152x64 : Shape := ⟨2, ![2097152, 64]⟩
abbrev S2097152 : Shape := ⟨1, ![2097152]⟩
abbrev S1x64 : Shape := ⟨2, ![1, 64]⟩
abbrev S2097152x1 : Shape := ⟨2, ![2097152, 1]⟩
abbrev S16x64 : Shape := ⟨2, ![16, 64]⟩
abbrev S1x16 : Shape := ⟨2, ![1, 16]⟩
abbrev S8192x64 : Shape := ⟨2, ![8192, 64]⟩
abbrev S8192x1 : Shape := ⟨2, ![8192, 1]⟩
abbrev S8192x16 : Shape := ⟨2, ![8192, 16]⟩
abbrev S16 : Shape := ⟨1, ![16]⟩
abbrev S16x1 : Shape := ⟨2, ![16, 1]⟩
abbrev S_ : Shape := ⟨0, ![]⟩

abbrev nBuf : Space → Nat
  | .hbm => 29
  | .vmem => 17
  | .smem => 0
  | _ => 0

abbrev bufTy : (tb : Table) → Fin (tcTables nBuf tb) → BufTy
  | .hbm, ⟨0, _⟩ => ⟨S2097152x64, .f32⟩
  | .hbm, ⟨1, _⟩ => ⟨S2097152, .i32⟩
  | .hbm, ⟨2, _⟩ => ⟨S1x64, .f32⟩
  | .hbm, ⟨3, _⟩ => ⟨S1x64, .f32⟩
  | .hbm, ⟨4, _⟩ => ⟨S2097152x1, .i32⟩
  | .hbm, ⟨5, _⟩ => ⟨S16x64, .f32⟩
  | .hbm, ⟨6, _⟩ => ⟨S16x64, .f32⟩
  | .hbm, ⟨7, _⟩ => ⟨S1x16, .f32⟩
  | .hbm, ⟨8, _⟩ => ⟨S16x1, .f32⟩
  | .hbm, ⟨9, _⟩ => ⟨S_, .f32⟩
  | .hbm, ⟨10, _⟩ => ⟨S16x1, .f32⟩
  | .hbm, ⟨11, _⟩ => ⟨S16x1, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S_, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S_, .f32⟩
  | .hbm, ⟨26, _⟩ => ⟨S16x64, .f32⟩
  | .hbm, ⟨27, _⟩ => ⟨S16x64, .f32⟩
  | .hbm, ⟨28, _⟩ => ⟨S2097152x64, .f32⟩
  | .local _ .vmem, ⟨0, _⟩ => ⟨S8192x64, .f32⟩
  | .local _ .vmem, ⟨1, _⟩ => ⟨S8192x64, .f32⟩
  | .local _ .vmem, ⟨2, _⟩ => ⟨S8192x1, .i32⟩
  | .local _ .vmem, ⟨3, _⟩ => ⟨S8192x1, .i32⟩
  | .local _ .vmem, ⟨4, _⟩ => ⟨S16x64, .f32⟩
  | .local _ .vmem, ⟨5, _⟩ => ⟨S16x64, .f32⟩
  | .local _ .vmem, ⟨6, _⟩ => ⟨S1x16, .f32⟩
  | .local _ .vmem, ⟨7, _⟩ => ⟨S8192x64, .f32⟩
  | .local _ .vmem, ⟨8, _⟩ => ⟨S8192x64, .f32⟩
  | .local _ .vmem, ⟨9, _⟩ => ⟨S8192x1, .i32⟩
  | .local _ .vmem, ⟨10, _⟩ => ⟨S8192x1, .i32⟩
  | .local _ .vmem, ⟨11, _⟩ => ⟨S16x64, .f32⟩
  | .local _ .vmem, ⟨12, _⟩ => ⟨S16x64, .f32⟩
  | .local _ .vmem, ⟨13, _⟩ => ⟨S1x64, .f32⟩
  | .local _ .vmem, ⟨14, _⟩ => ⟨S1x64, .f32⟩
  | .local _ .vmem, ⟨15, _⟩ => ⟨S8192x64, .f32⟩
  | .local _ .vmem, ⟨16, _⟩ => ⟨S8192x64, .f32⟩
  | _, _ => ⟨S2097152x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S2097152_S2097152x1 : S2097152.ShapeCasts S2097152x1
  inb_S16x64_S16x64_0_0 : ∀ a, (![0, 0] : Fin 2 → Nat) a + S16x64.size a ≤ S16x64.size a
  h_S16x64 : 0 < S16x64.numel
  inb_S1x16_S1x16_0_0 : ∀ a, (![0, 0] : Fin 2 → Nat) a + S1x16.size a ≤ S1x16.size a
  h_S1x16 : 0 < S1x16.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  iota_S8192x16_d1_w32 : S8192x16.Iotas .tc 32 [1]
  broadcasts_S8192x1_S8192x16 : S8192x1.Broadcasts S8192x16
  natLt_1_32 : 1 < 32
  reduces_S8192x16_S16 : S8192x16.Reduces [0] S16
  shapeCasts_S16_S1x16 : S16.ShapeCasts S1x16
  shapeCasts_S1x16_S1x16 : S1x16.ShapeCasts S1x16
  bitsLt_bf16_f32 : FTy.bits .bf16 < FTy.bits .f32
  shapeCasts_S16x64_S16x64 : S16x64.ShapeCasts S16x64
  shapeCasts_S1x16_S16x1 : S1x16.ShapeCasts S16x1
  bcast_S_S16x1 : S_.BroadcastsInDim S16x1 (![] : Fin 0 → Fin S16x1.rank)
  bcast_S16x1_S16x64_0_1 : S16x1.BroadcastsInDim S16x64 (![0, 1] : Fin 2 → Fin S16x64.rank)
  bcast_S_S16x64 : S_.BroadcastsInDim S16x64 (![] : Fin 0 → Fin S16x64.rank)
  inb_S1x64_S1x64_0_0 : ∀ a, (![0, 0] : Fin 2 → Nat) a + S1x64.size a ≤ S1x64.size a
  h_S1x64 : 0 < S1x64.numel
  broadcasts_S1x64_S8192x64 : S1x64.Broadcasts S8192x64
  dot_S8192x16_S8192x64_S16x64_0_0_1_1_n_n_wf : DotDims.WF S8192x16 S8192x64 S16x64 [0] [0] [1] [1] [] []
  dot_S8192x16_S16x64_S8192x64_1_0_0_1_n_n_wf : DotDims.WF S8192x16 S16x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2097152x64.size a
  hwx0_0 : ∀ i : grid0.Coords, EltTy.bits .f32 = 32 ∨ (Rect.block (s := S2097152x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .i32 = 32 ∨ (Rect.block (s := S2097152x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S2097152x64.size a
  hwx1_0 : ∀ i : grid1.Coords, EltTy.bits .f32 = 32 ∨ (Rect.block (s := S2097152x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S2097152x1.size a
  hwx1_1 : ∀ i : grid1.Coords, EltTy.bits .i32 = 32 ∨ (Rect.block (s := S2097152x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x64.size a ≤ S2097152x64.size a
  hwx1_6 : ∀ i : grid1.Coords, EltTy.bits .f32 = 32 ∨ (Rect.block (s := S2097152x64) S8192x64.size (cc1_transform_6 i) (hinb1_6 i)).WholeWords (EltTy.packing .f32)

variable [Facts₀]

def dot_S8192x16_S8192x64_S16x64_0_0_1_1_n_n : DotDims S8192x16 S8192x64 S16x64 where
  lhsContracting := [0]
  rhsContracting := [0]
  lhsNonContracting := [1]
  rhsNonContracting := [1]
  lhsBatch := []
  rhsBatch := []
  wf := dot_S8192x16_S8192x64_S16x64_0_0_1_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S16x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S16x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S8192x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2097152x64 : Shape := ⟨2, ![2097152, 64]⟩
abbrev S2097152 : Shape := ⟨1, ![2097152]⟩
abbrev S1x64 : Shape := ⟨2, ![1, 64]⟩
abbrev S_ : Shape := ⟨0, ![]⟩
abbrev S2097152x1 : Shape := ⟨2, ![2097152, 1]⟩
abbrev S16x1 : Shape := ⟨2, ![16, 1]⟩
abbrev S16x64 : Shape := ⟨2, ![16, 64]⟩

abbrev nBuf : Space → Nat
  | .hbm => 57
  | .vmem => 0
  | .smem => 0
  | _ => 0

abbrev bufTy : (tb : Table) → Fin (tcTables nBuf tb) → BufTy
  | .hbm, ⟨0, _⟩ => ⟨S2097152x64, .f32⟩
  | .hbm, ⟨1, _⟩ => ⟨S2097152, .i32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S2097152x1, .f32⟩
  | .hbm, ⟨6, _⟩ => ⟨S_, .f32⟩
  | .hbm, ⟨7, _⟩ => ⟨S16x1, .f32⟩
  | .hbm, ⟨8, _⟩ => ⟨S2097152x1, .i32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x64, .f32⟩
  | .hbm, ⟨15, _⟩ => ⟨S2097152x1, .i32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S_, .i32⟩
  | .hbm, ⟨20, _⟩ => ⟨S2097152, .i32⟩
  | .hbm, ⟨21, _⟩ => ⟨S2097152, .i1⟩
  | .hbm, ⟨22, _⟩ => ⟨S_, .i32⟩
  | .hbm, ⟨23, _⟩ => ⟨S2097152, .i32⟩
  | .hbm, ⟨24, _⟩ => ⟨S2097152, .i32⟩
  | .hbm, ⟨25, _⟩ => ⟨S2097152, .i32⟩
  | .hbm, ⟨26, _⟩ => ⟨S2097152x1, .i32⟩
  | .hbm, ⟨27, _⟩ => ⟨S2097152x64, .f32⟩
  | .hbm, ⟨28, _⟩ => ⟨S2097152x64, .f32⟩
  | .hbm, ⟨29, _⟩ => ⟨S2097152x64, .f32⟩
  | .hbm, ⟨30, _⟩ => ⟨S_, .f32⟩
  | .hbm, ⟨31, _⟩ => ⟨S16x64, .f32⟩
  | .hbm, ⟨32, _⟩ => ⟨S2097152x1, .i32⟩
  | .hbm, ⟨33, _⟩ => ⟨S16x64, .f32⟩
  | .hbm, ⟨34, _⟩ => ⟨S16x64, .f32⟩
  | .hbm, ⟨35, _⟩ => ⟨S16x64, .f32⟩
  | .hbm, ⟨36, _⟩ => ⟨S_, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S_, .f32⟩
  | .hbm, ⟨41, _⟩ => ⟨S16x64, .f32⟩
  | .hbm, ⟨42, _⟩ => ⟨S16x64, .f32⟩
  | .hbm, ⟨43, _⟩ => ⟨S_, .i32⟩
  | .hbm, ⟨44, _⟩ => ⟨S2097152, .i32⟩
  | .hbm, ⟨45, _⟩ => ⟨S2097152, .i1⟩
  | .hbm, ⟨46, _⟩ => ⟨S_, .i32⟩
  | .hbm, ⟨47, _⟩ => ⟨S2097152, .i32⟩
  | .hbm, ⟨48, _⟩ => ⟨S2097152, .i32⟩
  | .hbm, ⟨49, _⟩ => ⟨S2097152, .i32⟩
  | .hbm, ⟨50, _⟩ => ⟨S2097152x1, .i32⟩
  | .hbm, ⟨51, _⟩ => ⟨S2097152x64, .f32⟩
  | .hbm, ⟨52, _⟩ => ⟨S2097152x64, .f32⟩
  | .hbm, ⟨53, _⟩ => ⟨S2097152x64, .f32⟩
  | .hbm, ⟨54, _⟩ => ⟨S2097152x64, .f32⟩
  | .hbm, ⟨55, _⟩ => ⟨S2097152x64, .f32⟩
  | .hbm, ⟨56, _⟩ => ⟨S2097152x64, .f32⟩
  | _, _ => ⟨S2097152x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  bcast_S_S2097152x1 : S_.BroadcastsInDim S2097152x1 (![] : Fin 0 → Fin S2097152x1.rank)
  bcast_S_S16x1 : S_.BroadcastsInDim S16x1 (![] : Fin 0 → Fin S16x1.rank)
  bcast_S2097152_S2097152x1_0 : S2097152.BroadcastsInDim S2097152x1 (![0] : Fin 1 → Fin S2097152x1.rank)
  bcast_S_S16x64 : S_.BroadcastsInDim S16x64 (![] : Fin 0 → Fin S16x64.rank)
  bcast_S16x1_S16x64_0_1 : S16x1.BroadcastsInDim S16x64 (![0, 1] : Fin 2 → Fin S16x64.rank)
  bcast_S_S2097152 : S_.BroadcastsInDim S2097152 (![] : Fin 0 → Fin S2097152.rank)
  bcast_S1x64_S2097152x64_0_1 : S1x64.BroadcastsInDim S2097152x64 (![0, 1] : Fin 2 → Fin S2097152x64.rank)
  scatter_S16x1_S2097152x1_S2097152x1_1_0_0_1_wf : ScatterDims.WF S16x1 S2097152x1 S2097152x1 [1] [0] [0] 1
  scatter_S16x64_S2097152x1_S2097152x64_1_0_0_1_wf : ScatterDims.WF S16x64 S2097152x1 S2097152x64 [1] [0] [0] 1
  gather_S16x64_S2097152x1_S2097152x64_1_0_n_n_0_1_164_wf : GatherDims.WF S16x64 S2097152x1 S2097152x64 [1] [0] [] [0] [] 1 ![1, 64]

variable [Facts₀]

def scatter_S16x1_S2097152x1_S2097152x1_1_0_0_1 : ScatterDims S16x1 S2097152x1 S2097152x1 where
  updateWindowDims := [1]
  insertedWindowDims := [0]
  scatterDimsToOperandDims := [0]
  indexVectorDim := 1
  wf := scatter_S16x1_S2097152x1_S2097152x1_1_0_0_1_wf
def scatter_S16x64_S2097152x1_S2097152x64_1_0_0_1 : ScatterDims S16x64 S2097152x1 S2097152x64 where
  updateWindowDims := [1]
  insertedWindowDims := [0]
  scatterDimsToOperandDims := [0]
  indexVectorDim := 1
  wf := scatter_S16x64_S2097152x1_S2097152x64_1_0_0_1_wf
def gather_S16x64_S2097152x1_S2097152x64_1_0_n_n_0_1_164 : GatherDims S16x64 S2097152x1 S2097152x64 where
  offsetDims := [1]
  collapsedSliceDims := [0]
  operandBatchingDims := []
  startIndicesBatchingDims := []
  startIndexMap := [0]
  indexVectorDim := 1
  sliceSizes := ![1, 64]
  wf := gather_S16x64_S2097152x1_S2097152x64_1_0_n_n_0_1_164_wf

class Facts : Prop extends Facts₀ where

variable [Facts]
-- ==== Proof.Spec.lean ====
/-
  Segment statistics over the rows of a table, as extended reals.

  A row `n` carries a 32-bit segment word `w n`; segment `b` (one of sixteen) owns the rows whose word is `b`.
  Over such a family this file names: the indicator of "row `n` is in segment `b`" (`ohw`), a segment's row count
  and a segment's sum of a row function (`segCount`, `segSum`), the per-segment mean (the sum over the count, the
  count raised to at least one), the two forms of the per-segment variance — the mean of the squares less the
  squared mean, cut off below at zero (`varTabK`), and the mean of the squared deviations from the segment's mean
  (`varTabR`) —, the reciprocal standard deviation `1 / sqrt (v + eps)`, and the normalised row in both forms
  (`rowK`: mean and reciprocal deviation picked by summing against the indicator; `rowR`: picked at a row's own
  segment `g n`).  The float words `0`, `1` and `eps` stay as the words the programs print.
-/
import Idealize.ShloMosaic.PureOps.Ideal
import Idealize.ShloMosaic.PureOps.Ideal.Laws
import Idealize.ShloMosaic.Lib.IdealHost
import Idealize.ShloMosaic.Lib.ValueIdx

noncomputable section

namespace Cert.Seg

open Idealize.ShloMosaic Idealize.ShloMosaic.ValueIdx

/-- The number of rows. -/
abbrev NR : Nat := 2097152

/-- The printed words for `0.0`, `1.0` and the variance's `eps`, read as extended reals. -/
abbrev zeroW : EReal := Ideal.ofBits .f32 0x00000000#32
abbrev oneW : EReal := Ideal.ofBits .f32 0x3F800000#32
abbrev epsW : EReal := Ideal.ofBits .f32 0x322BCC77#32

/-- The words for `0.0` and `1.0` are the extended reals 0 and 1. -/
theorem zeroW_eq : zeroW = 0 := Ideal.ofBits_zero_f32
theorem oneW_eq : oneW = 1 := Ideal.ofBits_one_f32

/-- The indicator that the segment word `w` names segment `b`. -/
def ohw (w : BitVec 32) (b : Fin 16) : EReal := if w = BitVec.ofNat 32 b.val then 1 else 0

/-- How many rows segment `b` owns. -/
def segCount (w : Fin NR → BitVec 32) (b : Fin 16) : EReal := ∑ n : Fin NR, ohw (w n) b

/-- The sum of `f` over the rows segment `b` owns. -/
def segSum (w : Fin NR → BitVec 32) (f : Fin NR → EReal) (b : Fin 16) : EReal := ∑ n : Fin NR, ohw (w n) b * f n

/-- A count raised to at least one: the divisor of a mean. -/
def den (k : EReal) : EReal := max k oneW

/-- The reciprocal standard deviation of a variance `v`. -/
def invStd (v : EReal) : EReal := Ideal.div oneW (Ideal.sqrt (v + epsW))

/-- Segment `b`'s mean of column `c`. -/
def meanTab (w : Fin NR → BitVec 32) (x : Fin NR → Fin 64 → EReal) (b : Fin 16) (c : Fin 64) : EReal :=
  Ideal.div (segSum w (fun n => x n c) b) (den (segCount w b))

/-- Segment `b`'s variance of column `c` as the mean of the squares less the squared mean, cut off below at zero. -/
def varTabK (w : Fin NR → BitVec 32) (x : Fin NR → Fin 64 → EReal) (b : Fin 16) (c : Fin 64) : EReal :=
  max (Ideal.div (segSum w (fun n => x n c * x n c) b) (den (segCount w b)) - meanTab w x b c * meanTab w x b c) zeroW

/-- The normalised row, mean and reciprocal deviation picked by summing the tables against the row's indicator. -/
def rowK (w : Fin NR → BitVec 32) (x : Fin NR → Fin 64 → EReal) (wt bs : Fin 64 → EReal) (n : Fin NR) (c : Fin 64) : EReal :=
  ((x n c - ∑ k : Fin 16, ohw (w n) k * meanTab w x k c) * (∑ k : Fin 16, ohw (w n) k * invStd (varTabK w x k c))) * wt c + bs c

/-- A row's deviation from the mean of the segment `g n`. -/
def devR (w : Fin NR → BitVec 32) (x : Fin NR → Fin 64 → EReal) (g : Fin NR → Fin 16) (n : Fin NR) (c : Fin 64) : EReal :=
  x n c - meanTab w x (g n) c

/-- Segment `b`'s variance of column `c` as the mean of the squared deviations. -/
def varTabR (w : Fin NR → BitVec 32) (x : Fin NR → Fin 64 → EReal) (g : Fin NR → Fin 16) (b : Fin 16) (c : Fin 64) : EReal :=
  Ideal.div (segSum w (fun n => devR w x g n c * devR w x g n c) b) (den (segCount w b))

/-- The normalised row, mean and reciprocal deviation picked at the row's own segment `g n`. -/
def rowR (w : Fin NR → BitVec 32) (x : Fin NR → Fin 64 → EReal) (g : Fin NR → Fin 16) (wt bs : Fin 64 → EReal) (n : Fin NR) (c : Fin 64) : EReal :=
  (devR w x g n c * invStd (varTabR w x g (g n) c)) * wt c + bs c

end Cert.Seg

end
-- ==== Proof.Pay.lean ====
/-
  The two kernel bodies' arithmetic read at an index, over the extended reals.

  First body (one block of 8192 rows, ids `v3`, features `v5`): the reset stores zeros; the count update adds, at
  segment `b`, the number of the block's rows whose id is `b`; the sum and sum-of-squares updates add, at `(b, c)`,
  the block's column `c` (or its square) summed over the rows whose id is `b` — the one-hot product's contraction
  over the block's rows.  Second body: at row `r`, column `c`, the feature less the mean table summed against the
  row's indicator, times the reciprocal-deviation table summed against it, times the weight, plus the bias.
-/
import proofs.«425874_j13881334301293_2_alg».proof.Proof.Gen.KernelIdeal.Skeleton
import proofs.«425874_j13881334301293_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Seg
open Idealize.ShloMosaic Idealize.ShloMosaic.ValueIdx

/-- An equality test's one-bit word, widened to 32 bits and read as a signed integer, is the indicator of equality. -/
theorem indicator_word (w v : BitVec 32) :
    (FloatOps.sitofp (F := Ideal) .f32 ((IntOp.cmpi .eq w v).setWidth 32) : EReal) = if w = v then 1 else 0 := by
  by_cases h : w = v
  · rw [if_pos h, h]
    have e : IntOp.cmpi .eq v v = 1#1 := by simp [IntOp.cmpi]
    rw [e]
    show ((((1#1 : BitVec 1).setWidth 32).toInt : ℝ) : EReal) = 1
    have e2 : ((1#1 : BitVec 1).setWidth 32).toInt = 1 := by decide
    rw [e2]; simp
  · rw [if_neg h]
    have hb : (w == v) = false := by simpa using h
    have e : IntOp.cmpi .eq w v = 0#1 := by
      show BitVec.ofBool (w == v) = 0#1
      rw [hb]; rfl
    rw [e]
    show ((((0#1 : BitVec 1).setWidth 32).toInt : ℝ) : EReal) = 0
    have e2 : ((0#1 : BitVec 1).setWidth 32).toInt = 0 := by decide
    rw [e2]; simp

/-- A column of ids spread along 16 lanes reads, at `(r, b)`, the id of row `r`. -/
theorem spread_ids_apply (v : IVec S8192x1 32) (h : S8192x1.Broadcasts S8192x16) (r : Fin 8192) (b : Fin 16) :
    broadcastTo S8192x16 v h (ix2 r b) = v (ix2 r 0) := by
  refine broadcastTo_apply v h (ix2 r b) (ix2 r (0 : Fin 1)) fun ax => ?_
  match ax with
  | ⟨0, _⟩ => rfl
  | ⟨1, _⟩ => rfl

/-- The lane counter along the second axis reads, at `(r, b)`, the word of `b`. -/
theorem lane_counter_apply (h : S8192x16.Iotas .tc 32 [1]) (r : Fin 8192) (b : Fin 16) :
    iota .tc S8192x16 32 [1] h (ix2 r b) = BitVec.ofNat 32 b.val :=
  iota_single_apply .tc S8192x16 32 1 h (ix2 r b)

/-- The one-hot matrix of a block's ids, as both bodies build it (the id column spread along the lanes, compared with
    the lane counter, the bit widened and converted): at `(r, b)` the indicator that row `r`'s id names segment `b`. -/
theorem onehot_expr_apply (v : IVec S8192x1 32) (h2 : S8192x1.Broadcasts S8192x16)
    (h3 : S8192x16.Iotas .tc 32 [1]) (h4 : 1 < 32) (r : Fin 8192) (b : Fin 16) :
    (sitofp (F := Ideal) .f32 (extui 32 (cmpi .eq (broadcastTo S8192x16 v h2)
      (iota .tc S8192x16 32 [1] h3)) h4)) (ix2 r b) = ohw (v (ix2 r 0)) b := by
  rw [sitofp_apply, extui_apply]
  show FloatOps.sitofp (F := Ideal) .f32 ((IntOp.cmpi .eq (broadcastTo S8192x16 v h2 (ix2 r b))
    (iota .tc S8192x16 32 [1] h3 (ix2 r b))).setWidth 32) = _
  rw [spread_ids_apply, lane_counter_apply, indicator_word]
  rfl

/-- The first body's one-hot matrix at `(r, b)`. -/
theorem onehot_apply (v3 : Vec Ideal S8192x1 .i32) (r : Fin 8192) (b : Fin 16) :
    k0_pay4 (F := Ideal) v3 (ix2 r b) = ohw (v3 (ix2 r 0)) b := by
  unfold k0_pay4
  rw [shapeCast_self]
  exact onehot_expr_apply v3 _ _ _ r b

/-- The sum over the rows of an [8192, 16] matrix, read at lane `b`. -/
theorem row_sum_apply (X : FVec Ideal S8192x16 .f32) (h : S8192x16.Reduces [0] S16) (hφ : FKind.Formats .f32)
    (hacc : (0x00000000#32 : BitVec 32) = FKind.add.neutral .f32 hφ) (b : Fin 16) :
    multiReduction (F := Ideal) .add [0] S16 X 0x00000000#32 h hφ hacc (ix1 b) = ∑ r : Fin 8192, X (ix2 r b) := by
  refine (Ideal.multiReduction_add_single X 0x00000000#32 h hφ hacc (ix1 b)).trans ?_
  refine Finset.sum_congr rfl fun r _ => congrArg X (funext fun a => Fin.ext ?_)
  match a with
  | ⟨0, _⟩ => rfl
  | ⟨1, _⟩ => rfl

/-! The block-sum product: the one-hot matrix's rows (axis 0) contract with the features' rows (axis 0). -/

theorem lhs_blocksum_0 (i : S16x64.Idx) (q : dot_S8192x16_S8192x64_S16x64_0_0_1_1_n_n.contr.Idx) :
    (dot_S8192x16_S8192x64_S16x64_0_0_1_1_n_n.lhsIdx i q 0).val = (q ⟨0, by decide⟩).val :=
  dot_S8192x16_S8192x64_S16x64_0_0_1_1_n_n.lhsIdx_val_of_single rfl i q
theorem lhs_blocksum_1 (i : S16x64.Idx) (q : dot_S8192x16_S8192x64_S16x64_0_0_1_1_n_n.contr.Idx) :
    (dot_S8192x16_S8192x64_S16x64_0_0_1_1_n_n.lhsIdx i q 1).val = (i 0).val := by
  unfold DotDims.lhsIdx
  rw [dif_neg (show ¬(1 : Fin S8192x16.rank) ∈ dot_S8192x16_S8192x64_S16x64_0_0_1_1_n_n.lhsBatch by decide),
    dif_pos (show (1 : Fin S8192x16.rank) ∈ dot_S8192x16_S8192x64_S16x64_0_0_1_1_n_n.lhsNonContracting by decide)]
  rfl
theorem rhs_blocksum_0 (i : S16x64.Idx) (q : dot_S8192x16_S8192x64_S16x64_0_0_1_1_n_n.contr.Idx) :
    (dot_S8192x16_S8192x64_S16x64_0_0_1_1_n_n.rhsIdx i q 0).val = (q ⟨0, by decide⟩).val :=
  dot_S8192x16_S8192x64_S16x64_0_0_1_1_n_n.rhsIdx_val_of_single rfl i q
theorem rhs_blocksum_1 (i : S16x64.Idx) (q : dot_S8192x16_S8192x64_S16x64_0_0_1_1_n_n.contr.Idx) :
    (dot_S8192x16_S8192x64_S16x64_0_0_1_1_n_n.rhsIdx i q 1).val = (i 1).val := by
  unfold DotDims.rhsIdx
  rw [dif_neg (show ¬(1 : Fin S8192x64.rank) ∈ dot_S8192x16_S8192x64_S16x64_0_0_1_1_n_n.rhsBatch by decide),
    dif_pos (show (1 : Fin S8192x64.rank) ∈ dot_S8192x16_S8192x64_S16x64_0_0_1_1_n_n.rhsNonContracting by decide)]
  rfl

/-- The product of a transposed [8192, 16] matrix with an [8192, 64] one into a zero accumulator: at `(b, c)` the sum
    over the rows of the products of the entries. -/
theorem blocksum_apply {φ₁ φ₂ : FTy} (prec : Option ContractPrecision) (A : FVec Ideal S8192x16 φ₁) (B : FVec Ideal S8192x64 φ₂)
    (b : Fin 16) (c : Fin 64) :
    matmul dot_S8192x16_S8192x64_S16x64_0_0_1_1_n_n prec A B (constant (F := Ideal) S16x64 .f32 0x00000000#32) (ix2 b c)
      = ∑ r : Fin 8192, A (ix2 r b) * B (ix2 r c) := by
  show FloatOps.matmul _ prec A B (constant (F := Ideal) S16x64 .f32 0x00000000#32) (ix2 b c) = _
  rw [Ideal.matmul_constant_zero_apply,
    ← Equiv.sum_comp (contrEquiv1 dot_S8192x16_S8192x64_S16x64_0_0_1_1_n_n 8192 rfl rfl).symm]
  refine Finset.sum_congr rfl fun k _ => ?_
  have hk := contrEquiv1_symm_val dot_S8192x16_S8192x64_S16x64_0_0_1_1_n_n 8192 rfl rfl k
  have el : dot_S8192x16_S8192x64_S16x64_0_0_1_1_n_n.lhsIdx (ix2 b c)
      ((contrEquiv1 dot_S8192x16_S8192x64_S16x64_0_0_1_1_n_n 8192 rfl rfl).symm k) = ix2 k b := funext fun a => Fin.ext (by
    match a with
    | ⟨0, _⟩ => exact (lhs_blocksum_0 _ _).trans hk
    | ⟨1, _⟩ => exact lhs_blocksum_1 _ _)
  have er : dot_S8192x16_S8192x64_S16x64_0_0_1_1_n_n.rhsIdx (ix2 b c)
      ((contrEquiv1 dot_S8192x16_S8192x64_S16x64_0_0_1_1_n_n 8192 rfl rfl).symm k) = ix2 k c := funext fun a => Fin.ext (by
    match a with
    | ⟨0, _⟩ => exact (rhs_blocksum_0 _ _).trans hk
    | ⟨1, _⟩ => exact rhs_blocksum_1 _ _)
  rw [el, er]

/-! The table pick: the one-hot matrix's lanes (axis 1) contract with the table's rows (axis 0). -/

theorem lhs_pick_0 (i : S8192x64.Idx) (q : dot_S8192x16_S16x64_S8192x64_1_0_0_1_n_n.contr.Idx) :
    (dot_S8192x16_S16x64_S8192x64_1_0_0_1_n_n.lhsIdx i q 0).val = (i 0).val := by
  unfold DotDims.lhsIdx
  rw [dif_neg (show ¬(0 : Fin S8192x16.rank) ∈ dot_S8192x16_S16x64_S8192x64_1_0_0_1_n_n.lhsBatch by decide),
    dif_pos (show (0 : Fin S8192x16.rank) ∈ dot_S8192x16_S16x64_S8192x64_1_0_0_1_n_n.lhsNonContracting by decide)]
  rfl
theorem lhs_pick_1 (i : S8192x64.Idx) (q : dot_S8192x16_S16x64_S8192x64_1_0_0_1_n_n.contr.Idx) :
    (dot_S8192x16_S16x64_S8192x64_1_0_0_1_n_n.lhsIdx i q 1).val = (q ⟨0, by decide⟩).val :=
  dot_S8192x16_S16x64_S8192x64_1_0_0_1_n_n.lhsIdx_val_of_single rfl i q
theorem rhs_pick_0 (i : S8192x64.Idx) (q : dot_S8192x16_S16x64_S8192x64_1_0_0_1_n_n.contr.Idx) :
    (dot_S8192x16_S16x64_S8192x64_1_0_0_1_n_n.rhsIdx i q 0).val = (q ⟨0, by decide⟩).val :=
  dot_S8192x16_S16x64_S8192x64_1_0_0_1_n_n.rhsIdx_val_of_single rfl i q
theorem rhs_pick_1 (i : S8192x64.Idx) (q : dot_S8192x16_S16x64_S8192x64_1_0_0_1_n_n.contr.Idx) :
    (dot_S8192x16_S16x64_S8192x64_1_0_0_1_n_n.rhsIdx i q 1).val = (i 1).val := by
  unfold DotDims.rhsIdx
  rw [dif_neg (show ¬(1 : Fin S16x64.rank) ∈ dot_S8192x16_S16x64_S8192x64_1_0_0_1_n_n.rhsBatch by decide),
    dif_pos (show (1 : Fin S16x64.rank) ∈ dot_S8192x16_S16x64_S8192x64_1_0_0_1_n_n.rhsNonContracting by decide)]
  rfl

/-- The product of an [8192, 16] matrix with a [16, 64] table into a zero accumulator: at `(r, c)` the sum over the
    16 segments of the products of the entries. -/
theorem pick_apply {φ₁ φ₂ : FTy} (prec : Option ContractPrecision) (A : FVec Ideal S8192x16 φ₁) (T : FVec Ideal S16x64 φ₂)
    (r : Fin 8192) (c : Fin 64) :
    matmul dot_S8192x16_S16x64_S8192x64_1_0_0_1_n_n prec A T (constant (F := Ideal) S8192x64 .f32 0x00000000#32) (ix2 r c)
      = ∑ k : Fin 16, A (ix2 r k) * T (ix2 k c) := by
  show FloatOps.matmul _ prec A T (constant (F := Ideal) S8192x64 .f32 0x00000000#32) (ix2 r c) = _
  rw [Ideal.matmul_constant_zero_apply,
    ← Equiv.sum_comp (contrEquiv1 dot_S8192x16_S16x64_S8192x64_1_0_0_1_n_n 16 rfl rfl).symm]
  refine Finset.sum_congr rfl fun k _ => ?_
  have hk := contrEquiv1_symm_val dot_S8192x16_S16x64_S8192x64_1_0_0_1_n_n 16 rfl rfl k
  have el : dot_S8192x16_S16x64_S8192x64_1_0_0_1_n_n.lhsIdx (ix2 r c)
      ((contrEquiv1 dot_S8192x16_S16x64_S8192x64_1_0_0_1_n_n 16 rfl rfl).symm k) = ix2 r k := funext fun a => Fin.ext (by
    match a with
    | ⟨0, _⟩ => exact lhs_pick_0 _ _
    | ⟨1, _⟩ => exact (lhs_pick_1 _ _).trans hk)
  have er : dot_S8192x16_S16x64_S8192x64_1_0_0_1_n_n.rhsIdx (ix2 r c)
      ((contrEquiv1 dot_S8192x16_S16x64_S8192x64_1_0_0_1_n_n 16 rfl rfl).symm k) = ix2 k c := funext fun a => Fin.ext (by
    match a with
    | ⟨0, _⟩ => exact (rhs_pick_0 _ _).trans hk
    | ⟨1, _⟩ => exact rhs_pick_1 _ _)
  rw [el, er]

/-- The reset payloads are zero everywhere. -/
theorem pay1_apply (j : S16x64.Idx) : k0_pay1 (F := Ideal) j = 0 := by
  unfold k0_pay1
  exact Ideal.ofBits_zero_f32
theorem pay2_apply (j : S16x64.Idx) : k0_pay2 (F := Ideal) j = 0 := by
  unfold k0_pay2
  exact Ideal.ofBits_zero_f32
theorem pay3_apply (j : S1x16.Idx) : k0_pay3 (F := Ideal) j = 0 := by
  unfold k0_pay3
  exact Ideal.ofBits_zero_f32

/-- The count update at segment `b`: what was there plus the number of the block's rows whose id is `b`. -/
theorem pay5_apply (v3 : Vec Ideal S8192x1 .i32) (v13 : Vec Ideal S1x16 .f32) (b : Fin 16) :
    k0_pay5 (F := Ideal) v3 v13 (ix2 0 b) = v13 (ix2 0 b) + ∑ r : Fin 8192, ohw (v3 (ix2 r 0)) b := by
  unfold k0_pay5
  rw [addf_apply, shapeCast_self, shapeCast_a_1a_apply]
  refine congrArg (v13 (ix2 0 b) + ·) ?_
  refine (row_sum_apply (k0_pay4 (F := Ideal) v3) _ _ _ b).trans ?_
  exact Finset.sum_congr rfl fun r _ => onehot_apply v3 r b

/-- The sum update at `(b, c)`: what was there plus column `c` summed over the block's rows whose id is `b`. -/
theorem pay7_apply (v3 : Vec Ideal S8192x1 .i32) (v5 : Vec Ideal S8192x64 .f32) (v23 : Vec Ideal S16x64 .f32)
    (b : Fin 16) (c : Fin 64) :
    k0_pay7 (F := Ideal) v3 v5 v23 (ix2 b c) = v23 (ix2 b c) + ∑ r : Fin 8192, ohw (v3 (ix2 r 0)) b * v5 (ix2 r c) := by
  unfold k0_pay7 k0_pay6
  rw [addf_apply, shapeCast_self, blocksum_apply]
  refine congrArg (v23 (ix2 b c) + ·) ?_
  refine Finset.sum_congr rfl fun r _ => ?_
  rw [truncf_apply, truncf_apply, onehot_apply]

/-- The sum-of-squares update at `(b, c)`. -/
theorem pay8_apply (v3 : Vec Ideal S8192x1 .i32) (v5 : Vec Ideal S8192x64 .f32) (v27 : Vec Ideal S16x64 .f32)
    (b : Fin 16) (c : Fin 64) :
    k0_pay8 (F := Ideal) v3 v5 v27 (ix2 b c)
      = v27 (ix2 b c) + ∑ r : Fin 8192, ohw (v3 (ix2 r 0)) b * (v5 (ix2 r c) * v5 (ix2 r c)) := by
  unfold k0_pay8 k0_pay6
  rw [addf_apply, shapeCast_self, blocksum_apply]
  refine congrArg (v27 (ix2 b c) + ·) ?_
  refine Finset.sum_congr rfl fun r _ => ?_
  rw [truncf_apply, truncf_apply, mulf_apply, onehot_apply]

/-- The second body's store at row `r`, column `c`. -/
theorem k1_pay1_apply (v0 : Vec Ideal S8192x1 .i32) (v2 : Vec Ideal S8192x64 .f32) (v8 v11 : Vec Ideal S16x64 .f32)
    (v16 v19 : Vec Ideal S1x64 .f32) (r : Fin 8192) (c : Fin 64) :
    k1_pay1 (F := Ideal) v0 v2 v8 v11 v16 v19 (ix2 r c)
      = ((v2 (ix2 r c) - ∑ k : Fin 16, ohw (v0 (ix2 r 0)) k * v8 (ix2 k c))
          * (∑ k : Fin 16, ohw (v0 (ix2 r 0)) k * v11 (ix2 k c))) * v16 (ix2 0 c) + v19 (ix2 0 c) := by
  unfold k1_pay1
  rw [addf_apply, mulf_apply, mulf_apply, subf_apply, broadcastTo_1b_ab_apply, broadcastTo_1b_ab_apply,
    pick_apply, pick_apply]
  simp only [shapeCast_self]
  refine congrArg₂ (fun s t => ((v2 (ix2 r c) - s) * t) * v16 (ix2 0 c) + v19 (ix2 0 c)) ?_ ?_
  · exact Finset.sum_congr rfl fun k _ => congrArg (· * v8 (ix2 k c)) (onehot_expr_apply v0 _ _ _ r k)
  · exact Finset.sum_congr rfl fun k _ => congrArg (· * v11 (ix2 k c)) (onehot_expr_apply v0 _ _ _ r k)

end Cert.KernelIdeal.Pay

end
-- ==== Proof.Reg0.lean ====
/-
  The first region's three result arrays, read as values at the extended reals.

  The region walks the 256 blocks of 8192 rows in order; its three outputs keep ONE block (index (0, 0)) that is
  reset at the first point and updated at every point, and written back once, after the last point.  So each result
  array ends holding the running update after point 255: at `(b, c)` the sum, over ALL rows whose id is `b`, of
  column `c` (first output) or of its square (second), and at segment `b` the number of rows whose id is `b` (third).
  The ids are read through the region's second window (a column), the features through its first.
-/
import proofs.«425874_j13881334301293_2_alg».proof.Proof.Gen.KernelIdeal.Frame
import proofs.«425874_j13881334301293_2_alg».proof.Proof.Pay
import Idealize.ShloMosaic.Lib.Pipeline.Value
import Idealize.ShloMosaic.Lib.Tactic

set_option maxRecDepth 16384

noncomputable section

namespace Cert.KernelIdeal.Reg0

open Cert.KernelIdeal Cert.KernelIdeal.Gen Cert.Seg
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

/-- Row `n`'s segment word, as the region finds the id column. -/
abbrev idw (c : Dev nD) : Fin NR → BitVec 32 := fun n => (V c main_v0 : S2097152x1.Idx → BitVec 32) (ix2 n 0)
/-- Row `n`, column `k` of the features, as the region finds them. -/
abbrev xs (c : Dev nD) : Fin NR → Fin 64 → EReal := fun n k => (V c main_arg0 : S2097152x64.Idx → EReal) (ix2 n k)

/-- The per-segment column sums. -/
abbrev sumRes (c : Dev nD) : Buf (Elt Ideal) ((c : Thread nD τ).loc main_v1_0) :=
  fun j => segSum (idw V c) (fun n => xs V c n (j 1)) (j 0)
/-- The per-segment column sums of squares. -/
abbrev sqRes (c : Dev nD) : Buf (Elt Ideal) ((c : Thread nD τ).loc main_v1_1) :=
  fun j => segSum (idw V c) (fun n => xs V c n (j 1) * xs V c n (j 1)) (j 0)
/-- The per-segment row counts. -/
abbrev cntRes (c : Dev nD) : Buf (Elt Ideal) ((c : Thread nD τ).loc main_v1_2) :=
  fun j => segCount (idw V c) (j 1)

/-! ## The pieces each case of the body leaves, as the update payloads -/

/-- The zero offsets of a whole-buffer rectangle, however they are spelt. -/
theorem zero_offsets : (![0, 0] : Fin 2 → Nat) = fun _ => 0 := funext fun a => by fin_cases a <;> rfl

section Pieces
variable {F : FTy → Type} [FloatOps F]

/-- At a later point the count buffer holding `xo4` is left at the count update of the id block over `xo4`. -/
theorem countPiece_later (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : ¬cond0_0 i)
    (x0 : Vec F S8192x64 .f32) (x1 : Vec F S8192x1 .i32) (xo2 xo3 : Vec F S16x64 .f32) (xo4 : Vec F S1x16 .f32) :
    out0_B_4 c i a1 h1 a2 h2 a3 h3 a4 h4 a5 h5 hc x0 x1 xo2 xo3 xo4 = k0_pay5 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero zero_offsets]
  simp only [View.readAt_eq_ld, h2.read_unread, h5.read_unread, View.ld_unit_zero (S := S8192x1) zero_offsets,
    View.ld_unit_zero (S := S1x16) zero_offsets]

/-- At a later point the sum buffer holding `xo2` is left at the sum update of the blocks over `xo2`. -/
theorem sumPiece_later (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : ¬cond0_0 i)
    (x0 : Vec F S8192x64 .f32) (x1 : Vec F S8192x1 .i32) (xo2 xo3 : Vec F S16x64 .f32) (xo4 : Vec F S1x16 .f32) :
    out0_B_2 c i a1 h1 a2 h2 a3 h3 a4 h4 a5 h5 hc x0 x1 xo2 xo3 xo4 = k0_pay7 x1 x0 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero zero_offsets]
  simp only [View.readAt_eq_ld, h1.read_unread, h2.read_unread, h3.read_unread, View.ld_unit_zero (S := S8192x1) zero_offsets,
    View.ld_unit_zero (S := S8192x64) zero_offsets, View.ld_unit_zero (S := S16x64) zero_offsets]

/-- At a later point the squares buffer holding `xo3` is left at the squares update of the blocks over `xo3`. -/
theorem sqPiece_later (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : ¬cond0_0 i)
    (x0 : Vec F S8192x64 .f32) (x1 : Vec F S8192x1 .i32) (xo2 xo3 : Vec F S16x64 .f32) (xo4 : Vec F S1x16 .f32) :
    out0_B_3 c i a1 h1 a2 h2 a3 h3 a4 h4 a5 h5 hc x0 x1 xo2 xo3 xo4 = k0_pay8 x1 x0 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero zero_offsets]
  simp only [View.readAt_eq_ld, h1.read_unread, h2.read_unread, h4.read_unread, View.ld_unit_zero (S := S8192x1) zero_offsets,
    View.ld_unit_zero (S := S8192x64) zero_offsets, View.ld_unit_zero (S := S16x64) zero_offsets]

/-- At the first point the count buffer is left at the count update of the id block over the zero reset. -/
theorem countPiece_first (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : cond0_0 i)
    (x0 : Vec F S8192x64 .f32) (x1 : Vec F S8192x1 .i32) :
    out0_A_4 c i a1 h1 a2 h2 a3 h3 a4 h4 a5 h5 hc x0 x1 = k0_pay5 x1 (k0_pay3 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x16) zero_offsets, View.readCov_unit_zero (S := S1x16) _ zero_offsets]
  simp only [View.readAt_eq_ld, h2.read_unread, View.ld_unit_zero (S := S8192x1) zero_offsets]

/-- At the first point the sum buffer is left at the sum update of the blocks over the zero reset. -/
theorem sumPiece_first (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : cond0_0 i)
    (x0 : Vec F S8192x64 .f32) (x1 : Vec F S8192x1 .i32) :
    out0_A_2 c i a1 h1 a2 h2 a3 h3 a4 h4 a5 h5 hc x0 x1 = k0_pay7 x1 x0 (k0_pay1 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S16x64) zero_offsets, View.readCov_unit_zero (S := S16x64) _ zero_offsets]
  simp only [View.readAt_eq_ld, h1.read_unread, h2.read_unread, View.ld_unit_zero (S := S8192x1) zero_offsets,
    View.ld_unit_zero (S := S8192x64) zero_offsets]

/-- At the first point the squares buffer is left at the squares update of the blocks over the zero reset. -/
theorem sqPiece_first (c : Dev nD) (i : grid0.Coords) (a1 : Memref sig .tc .vmem S8192x64 .f32) (h1 : a1.IsWhole) (a2 : Memref sig .tc .vmem S8192x1 .i32) (h2 : a2.IsWhole) (a3 : Memref sig .tc .vmem S16x64 .f32) (h3 : a3.IsWhole) (a4 : Memref sig .tc .vmem S16x64 .f32) (h4 : a4.IsWhole) (a5 : Memref sig .tc .vmem S1x16 .f32) (h5 : a5.IsWhole) (hc : cond0_0 i)
    (x0 : Vec F S8192x64 .f32) (x1 : Vec F S8192x1 .i32) :
    out0_A_3 c i a1 h1 a2 h2 a3 h3 a4 h4 a5 h5 hc x0 x1 = k0_pay8 x1 x0 (k0_pay2 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S16x64) zero_offsets, View.readCov_unit_zero (S := S16x64) _ zero_offsets]
  simp only [View.readAt_eq_ld, h1.read_unread, h2.read_unread, View.ld_unit_zero (S := S8192x1) zero_offsets,
    View.ld_unit_zero (S := S8192x64) zero_offsets]

end Pieces

/-! ## The input blocks, row by row -/

/-- Both input windows walk the row blocks in grid order, at column block 0; the outputs keep block (0, 0). -/
theorem window_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `m`'s segment word, taken as zero past the last row. -/
def idAt (c : Dev nD) (m : ℕ) : BitVec 32 := if h : m < NR then idw V c ⟨m, h⟩ else 0
/-- Row `m`, column `k` of the features, taken as zero past the last row. -/
def featAt (c : Dev nD) (m : ℕ) (k : Fin 64) : EReal := if h : m < NR then xs V c ⟨m, h⟩ k else 0

theorem idAt_val (c : Dev nD) (m : Fin NR) : idAt V c m.val = idw V c m := dif_pos m.isLt
theorem featAt_val (c : Dev nD) (m : Fin NR) (k : Fin 64) : featAt V c m.val k = xs V c m k := dif_pos m.isLt

/-- The id block of point `t`. -/
abbrev idBlk (c : Dev nD) (t : Fin cfg0.N) : Vec Ideal S8192x1 .i32 := iblk0 V c 1 t
/-- The feature block of point `t`. -/
abbrev featBlk (c : Dev nD) (t : Fin cfg0.N) : Vec Ideal S8192x64 .f32 := iblk0 V c 0 t

/-- Row `r` of point `t`'s id block is row `8192 t + r` of the id column. -/
theorem idBlk_apply (c : Dev nD) (t : Fin cfg0.N) (r : Fin 8192) :
    idBlk V c t (ix2 r 0) = idAt V c (8192 * t.val + r.val) := by
  have hN : t.val < 256 := lt_of_lt_of_eq t.isLt (show cfg0.N = 256 from N_0)
  have hm : 8192 * t.val + r.val < NR := by have := r.isLt; show _ < 2097152; omega
  unfold idAt
  rw [dif_pos hm]
  unfold idBlk iblk0
  rw [View.read_apply]
  show V c main_v0 _ = V c main_v0 _
  congr 1
  funext a
  apply Fin.ext
  match a with
  | ⟨0, _⟩ => show win0_1.index t 0 * 8192 + 1 * r.val = 8192 * t.val + r.val; rw [(window_index t).2.2.1]; omega
  | ⟨1, _⟩ => show win0_1.index t 1 * 1 + 1 * 0 = 0; rw [(window_index t).2.2.2]

/-- Row `r`, column `k` of point `t`'s feature block is row `8192 t + r`, column `k` of the features. -/
theorem featBlk_apply (c : Dev nD) (t : Fin cfg0.N) (r : Fin 8192) (k : Fin 64) :
    featBlk V c t (ix2 r k) = featAt V c (8192 * t.val + r.val) k := by
  have hN : t.val < 256 := lt_of_lt_of_eq t.isLt (show cfg0.N = 256 from N_0)
  have hm : 8192 * t.val + r.val < NR := by have := r.isLt; show _ < 2097152; omega
  unfold featAt
  rw [dif_pos hm]
  unfold featBlk iblk0
  rw [View.read_apply]
  show V c main_arg0 _ = V c main_arg0 _
  congr 1
  funext a
  apply Fin.ext
  match a with
  | ⟨0, _⟩ => show win0_0.index t 0 * 8192 + 1 * r.val = 8192 * t.val + r.val; rw [(window_index t).1]; omega
  | ⟨1, _⟩ => show win0_0.index t 1 * 64 + 1 * k.val = k.val; rw [(window_index t).2.1]; omega

/-- A sum over all rows, block by block: `N` blocks of `B` rows. -/
theorem sum_rows_by_block (N B : ℕ) (g : ℕ → EReal) :
    ∑ s ∈ Finset.range N, ∑ r : Fin B, g (B * s + r.val) = ∑ m : Fin (N * B), g m.val := by
  rw [← Fin.sum_univ_eq_sum_range (fun s => ∑ r : Fin B, g (B * s + r.val)) N]
  rw [← Fintype.sum_prod_type (f := fun p : Fin N × Fin B => g (B * p.1.val + p.2.val))]
  refine Fintype.sum_equiv finProdFinEquiv _ _ (fun p => ?_)
  rw [finProdFinEquiv_apply_val, Nat.add_comm]

/-! ## What the three buffers hold after each point -/

/-- The count, sum and squares buffers after the body at position `n`. -/
abbrev cntAfter (c : Dev nD) (n : ℕ) (hn : n < cfg0.N) : Vec Ideal S1x16 .f32 := (outsAt0 V c n hn).2.2
abbrev sumAfter (c : Dev nD) (n : ℕ) (hn : n < cfg0.N) : Vec Ideal S16x64 .f32 := (outsAt0 V c n hn).1
abbrev sqAfter (c : Dev nD) (n : ℕ) (hn : n < cfg0.N) : Vec Ideal S16x64 .f32 := (outsAt0 V c n hn).2.1

/-- The first point leaves the count of its own block. -/
theorem cnt_first (c : Dev nD) (t : Fin cfg0.N) (h0 : t.val % 256 = 0) (b : Fin 16) :
    cntAfter V c t.val t.isLt (ix2 0 b) = ∑ r : Fin 8192, ohw (idAt V c (8192 * t.val + r.val)) b := by
  unfold cntAfter
  rw [outsAt0_A V c t h0]; dsimp only
  refine (congrFun (countPiece_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (featBlk V c t) (idBlk V c t)) (ix2 0 b)).trans ?_
  refine (Pay.pay5_apply (idBlk V c t) (k0_pay3 (F := Ideal)) b).trans ?_
  rw [Pay.pay3_apply, zero_add]
  exact Finset.sum_congr rfl fun r _ => by rw [idBlk_apply]

/-- A later point adds the count of its own block to what the point before left. -/
theorem cnt_later (c : Dev nD) (t : Fin cfg0.N) (h0 : ¬t.val % 256 = 0) (b : Fin 16) :
    cntAfter V c t.val t.isLt (ix2 0 b)
      = cntAfter V c (t.val - 1) (Nat.lt_of_le_of_lt (Nat.sub_le _ _) t.isLt) (ix2 0 b) + ∑ r : Fin 8192, ohw (idAt V c (8192 * t.val + r.val)) b := by
  unfold cntAfter
  rw [outsAt0_B V c t h0]; dsimp only
  refine (congrFun (countPiece_later (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (featBlk V c t) (idBlk V c t)
    (sumAfter V c (t.val - 1) (Nat.lt_of_le_of_lt (Nat.sub_le _ _) t.isLt)) (sqAfter V c (t.val - 1) (Nat.lt_of_le_of_lt (Nat.sub_le _ _) t.isLt)) (cntAfter V c (t.val - 1) (Nat.lt_of_le_of_lt (Nat.sub_le _ _) t.isLt))) (ix2 0 b)).trans ?_
  refine (Pay.pay5_apply (idBlk V c t) (cntAfter V c (t.val - 1) (Nat.lt_of_le_of_lt (Nat.sub_le _ _) t.isLt)) b).trans ?_
  exact congrArg _ (Finset.sum_congr rfl fun r _ => by rw [idBlk_apply])

/-- After point `n` the count buffer holds, at segment `b`, the number of rows of blocks `0 … n` whose id is `b`. -/
theorem cntAfter_eq (c : Dev nD) : ∀ (n : ℕ) (hn : n < cfg0.N) (b : Fin 16),
    cntAfter V c n hn (ix2 0 b) = ∑ s ∈ Finset.range (n + 1), ∑ r : Fin 8192, ohw (idAt V c (8192 * s + r.val)) b
  | 0, hn, b => by
    rw [Finset.sum_range_one]
    exact cnt_first V c ⟨0, hn⟩ rfl b
  | n + 1, hn, b => by
    have hN : cfg0.N = 256 := N_0
    have hB : ¬(⟨n + 1, hn⟩ : Fin cfg0.N).val % 256 = 0 := by dsimp only; omega
    rw [Finset.sum_range_succ, ← cntAfter_eq c n (Nat.lt_of_succ_lt hn) b]
    exact cnt_later V c ⟨n + 1, hn⟩ hB b

/-- After the last point it holds every segment's row count. -/
theorem cntAfter_last (c : Dev nD) (t : Fin cfg0.N) (h : t.val = 255) : cntAfter V c t.val t.isLt = cntRes V c := by
  obtain ⟨n, hn⟩ := t
  dsimp only at h
  subst h
  funext j
  obtain ⟨a, b, rfl⟩ : ∃ a b, j = ix2 a b := ⟨j 0, j 1, eq_ix2 j⟩
  obtain rfl : a = 0 := Subsingleton.elim _ _
  rw [cntAfter_eq]
  show _ = segCount (idw V c) b
  unfold segCount
  rw [sum_rows_by_block 256 8192 (fun m => ohw (idAt V c m) b)]
  exact Finset.sum_congr rfl fun m _ => by rw [idAt_val]

/-- The first point leaves, at segment `b` and column `k`, the column summed over its own block's rows whose id is `b`. -/
theorem sum_first (c : Dev nD) (t : Fin cfg0.N) (h0 : t.val % 256 = 0) (b : Fin 16) (k : Fin 64) :
    sumAfter V c t.val t.isLt (ix2 b k) = ∑ r : Fin 8192, ohw (idAt V c (8192 * t.val + r.val)) b * featAt V c (8192 * t.val + r.val) k := by
  unfold sumAfter
  rw [outsAt0_A V c t h0]; dsimp only
  refine (congrFun (sumPiece_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (featBlk V c t) (idBlk V c t)) (ix2 b k)).trans ?_
  refine (Pay.pay7_apply (idBlk V c t) (featBlk V c t) (k0_pay1 (F := Ideal)) b k).trans ?_
  rw [Pay.pay1_apply, zero_add]
  exact Finset.sum_congr rfl fun r _ => by rw [idBlk_apply, featBlk_apply]

/-- A later point adds its own block's part to what the point before left. -/
theorem sum_later (c : Dev nD) (t : Fin cfg0.N) (h0 : ¬t.val % 256 = 0) (b : Fin 16) (k : Fin 64) :
    sumAfter V c t.val t.isLt (ix2 b k)
      = sumAfter V c (t.val - 1) (Nat.lt_of_le_of_lt (Nat.sub_le _ _) t.isLt) (ix2 b k) + ∑ r : Fin 8192, ohw (idAt V c (8192 * t.val + r.val)) b * featAt V c (8192 * t.val + r.val) k := by
  unfold sumAfter
  rw [outsAt0_B V c t h0]; dsimp only
  refine (congrFun (sumPiece_later (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (featBlk V c t) (idBlk V c t)
    (sumAfter V c (t.val - 1) (Nat.lt_of_le_of_lt (Nat.sub_le _ _) t.isLt)) (sqAfter V c (t.val - 1) (Nat.lt_of_le_of_lt (Nat.sub_le _ _) t.isLt)) (cntAfter V c (t.val - 1) (Nat.lt_of_le_of_lt (Nat.sub_le _ _) t.isLt))) (ix2 b k)).trans ?_
  refine (Pay.pay7_apply (idBlk V c t) (featBlk V c t) (sumAfter V c (t.val - 1) (Nat.lt_of_le_of_lt (Nat.sub_le _ _) t.isLt)) b k).trans ?_
  exact congrArg _ (Finset.sum_congr rfl fun r _ => by rw [idBlk_apply, featBlk_apply])

/-- After point `n` the sum buffer holds, at `(b, k)`, column `k` summed over the rows of blocks `0 … n` whose id is `b`. -/
theorem sumAfter_eq (c : Dev nD) : ∀ (n : ℕ) (hn : n < cfg0.N) (b : Fin 16) (k : Fin 64),
    sumAfter V c n hn (ix2 b k) = ∑ s ∈ Finset.range (n + 1), ∑ r : Fin 8192, ohw (idAt V c (8192 * s + r.val)) b * featAt V c (8192 * s + r.val) k
  | 0, hn, b, k => by
    rw [Finset.sum_range_one]
    exact sum_first V c ⟨0, hn⟩ rfl b k
  | n + 1, hn, b, k => by
    have hN : cfg0.N = 256 := N_0
    have hB : ¬(⟨n + 1, hn⟩ : Fin cfg0.N).val % 256 = 0 := by dsimp only; omega
    rw [Finset.sum_range_succ, ← sumAfter_eq c n (Nat.lt_of_succ_lt hn) b k]
    exact sum_later V c ⟨n + 1, hn⟩ hB b k

/-- After the last point it holds every segment's column sums. -/
theorem sumAfter_last (c : Dev nD) (t : Fin cfg0.N) (h : t.val = 255) : sumAfter V c t.val t.isLt = sumRes V c := by
  obtain ⟨n, hn⟩ := t
  dsimp only at h
  subst h
  funext j
  obtain ⟨b, k, rfl⟩ : ∃ b k, j = ix2 b k := ⟨j 0, j 1, eq_ix2 j⟩
  rw [sumAfter_eq]
  show _ = segSum (idw V c) (fun n => xs V c n k) b
  unfold segSum
  rw [sum_rows_by_block 256 8192 (fun m => ohw (idAt V c m) b * featAt V c m k)]
  exact Finset.sum_congr rfl fun m _ => by rw [idAt_val, featAt_val]

/-- The first point leaves, at segment `b` and column `k`, the squared column summed over its own block's rows whose id is `b`. -/
theorem sq_first (c : Dev nD) (t : Fin cfg0.N) (h0 : t.val % 256 = 0) (b : Fin 16) (k : Fin 64) :
    sqAfter V c t.val t.isLt (ix2 b k) = ∑ r : Fin 8192, ohw (idAt V c (8192 * t.val + r.val)) b * (featAt V c (8192 * t.val + r.val) k * featAt V c (8192 * t.val + r.val) k) := by
  unfold sqAfter
  rw [outsAt0_A V c t h0]; dsimp only
  refine (congrFun (sqPiece_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (featBlk V c t) (idBlk V c t)) (ix2 b k)).trans ?_
  refine (Pay.pay8_apply (idBlk V c t) (featBlk V c t) (k0_pay2 (F := Ideal)) b k).trans ?_
  rw [Pay.pay2_apply, zero_add]
  exact Finset.sum_congr rfl fun r _ => by rw [idBlk_apply, featBlk_apply]

/-- A later point adds its own block's part to what the point before left. -/
theorem sq_later (c : Dev nD) (t : Fin cfg0.N) (h0 : ¬t.val % 256 = 0) (b : Fin 16) (k : Fin 64) :
    sqAfter V c t.val t.isLt (ix2 b k)
      = sqAfter V c (t.val - 1) (Nat.lt_of_le_of_lt (Nat.sub_le _ _) t.isLt) (ix2 b k) + ∑ r : Fin 8192, ohw (idAt V c (8192 * t.val + r.val)) b * (featAt V c (8192 * t.val + r.val) k * featAt V c (8192 * t.val + r.val) k) := by
  unfold sqAfter
  rw [outsAt0_B V c t h0]; dsimp only
  refine (congrFun (sqPiece_later (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (featBlk V c t) (idBlk V c t)
    (sumAfter V c (t.val - 1) (Nat.lt_of_le_of_lt (Nat.sub_le _ _) t.isLt)) (sqAfter V c (t.val - 1) (Nat.lt_of_le_of_lt (Nat.sub_le _ _) t.isLt)) (cntAfter V c (t.val - 1) (Nat.lt_of_le_of_lt (Nat.sub_le _ _) t.isLt))) (ix2 b k)).trans ?_
  refine (Pay.pay8_apply (idBlk V c t) (featBlk V c t) (sqAfter V c (t.val - 1) (Nat.lt_of_le_of_lt (Nat.sub_le _ _) t.isLt)) b k).trans ?_
  exact congrArg _ (Finset.sum_congr rfl fun r _ => by rw [idBlk_apply, featBlk_apply])

/-- After point `n` the squares buffer holds, at `(b, k)`, the squared column `k` summed over the rows of blocks `0 … n` whose id is `b`. -/
theorem sqAfter_eq (c : Dev nD) : ∀ (n : ℕ) (hn : n < cfg0.N) (b : Fin 16) (k : Fin 64),
    sqAfter V c n hn (ix2 b k) = ∑ s ∈ Finset.range (n + 1), ∑ r : Fin 8192, ohw (idAt V c (8192 * s + r.val)) b * (featAt V c (8192 * s + r.val) k * featAt V c (8192 * s + r.val) k)
  | 0, hn, b, k => by
    rw [Finset.sum_range_one]
    exact sq_first V c ⟨0, hn⟩ rfl b k
  | n + 1, hn, b, k => by
    have hN : cfg0.N = 256 := N_0
    have hB : ¬(⟨n + 1, hn⟩ : Fin cfg0.N).val % 256 = 0 := by dsimp only; omega
    rw [Finset.sum_range_succ, ← sqAfter_eq c n (Nat.lt_of_succ_lt hn) b k]
    exact sq_later V c ⟨n + 1, hn⟩ hB b k

/-- After the last point it holds every segment's column sums of squares. -/
theorem sqAfter_last (c : Dev nD) (t : Fin cfg0.N) (h : t.val = 255) : sqAfter V c t.val t.isLt = sqRes V c := by
  obtain ⟨n, hn⟩ := t
  dsimp only at h
  subst h
  funext j
  obtain ⟨b, k, rfl⟩ : ∃ b k, j = ix2 b k := ⟨j 0, j 1, eq_ix2 j⟩
  rw [sqAfter_eq]
  show _ = segSum (idw V c) (fun n => xs V c n k * xs V c n k) b
  unfold segSum
  rw [sum_rows_by_block 256 8192 (fun m => ohw (idAt V c m) b * (featAt V c m k * featAt V c m k))]
  exact Finset.sum_congr rfl fun m _ => by rw [idAt_val, featAt_val]

/-! ## The one write-back -/

/-- The three outputs keep block (0, 0) at every point. -/
theorem output_index : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The last point of the grid, the only one that writes back. -/
abbrev lastPoint : Fin cfg0.N := ⟨255, Nat.lt_of_lt_of_eq (by decide : 255 < 256) (N_0).symm⟩

/-- The write-back at the last point moves the row counts: block (0, 0) of a 1×16 array is the array. -/
theorem cnt_flushed (c : Dev nD) (t : Fin cfg0.N) (hf : (cfg0.win 4).flush t = true) :
    (dat0 V c).flushed 4 t = ((cfg0.win 4).blk t).view.read (Elt Ideal) (cntRes V c) := by
  have hN : cfg0.N = 256 := N_0
  have h255 : t.val = 255 := by have := (flush0_4 t).mp hf; have := t.isLt; omega
  show (cfg0.win 4).cut (grid0.coords t) ((dat0 V c).after 4 t) = _
  rw [after0_4]
  show (cfg0.win 4).cut (grid0.coords t) (cntAfter V c t.val t.isLt) = _
  rw [cntAfter_last V c t h255]
  have hz' : (fun a => win0_4.index t a * main_v1_2.ty.shape.size a) = fun _ => 0 := funext fun a => by
    match a with
    | ⟨0, _⟩ => show win0_4.index t 0 * 1 = 0; rw [(output_index t).2.2.1]
    | ⟨1, _⟩ => show win0_4.index t 1 * 16 = 0; rw [(output_index t).2.2.2]
  exact (Memref.read_access_unit_zero (Elt Ideal) main_v1_2 hz' (fun a => by rw [congrFun hz' a]; simp) (cntRes V c)).symm

/-- The write-back at the last point moves the column sums: block (0, 0) of a 16×64 array is the array. -/
theorem sum_flushed (c : Dev nD) (t : Fin cfg0.N) (hf : (cfg0.win 2).flush t = true) :
    (dat0 V c).flushed 2 t = ((cfg0.win 2).blk t).view.read (Elt Ideal) (sumRes V c) := by
  have hN : cfg0.N = 256 := N_0
  have h255 : t.val = 255 := by have := (flush0_2 t).mp hf; have := t.isLt; omega
  show (cfg0.win 2).cut (grid0.coords t) ((dat0 V c).after 2 t) = _
  rw [after0_2]
  show (cfg0.win 2).cut (grid0.coords t) (sumAfter V c t.val t.isLt) = _
  rw [sumAfter_last V c t h255]
  have hz' : (fun a => win0_2.index t a * main_v1_0.ty.shape.size a) = fun _ => 0 := funext fun a => by
    match a with
    | ⟨0, _⟩ => show win0_2.index t 0 * 16 = 0; rw [(output_index t).1.1]
    | ⟨1, _⟩ => show win0_2.index t 1 * 64 = 0; rw [(output_index t).1.2]
  exact (Memref.read_access_unit_zero (Elt Ideal) main_v1_0 hz' (fun a => by rw [congrFun hz' a]; simp) (sumRes V c)).symm

/-- The write-back at the last point moves the sums of squares: block (0, 0) of a 16×64 array is the array. -/
theorem sq_flushed (c : Dev nD) (t : Fin cfg0.N) (hf : (cfg0.win 3).flush t = true) :
    (dat0 V c).flushed 3 t = ((cfg0.win 3).blk t).view.read (Elt Ideal) (sqRes V c) := by
  have hN : cfg0.N = 256 := N_0
  have h255 : t.val = 255 := by have := (flush0_3 t).mp hf; have := t.isLt; omega
  show (cfg0.win 3).cut (grid0.coords t) ((dat0 V c).after 3 t) = _
  rw [after0_3]
  show (cfg0.win 3).cut (grid0.coords t) (sqAfter V c t.val t.isLt) = _
  rw [sqAfter_last V c t h255]
  have hz' : (fun a => win0_3.index t a * main_v1_1.ty.shape.size a) = fun _ => 0 := funext fun a => by
    match a with
    | ⟨0, _⟩ => show win0_3.index t 0 * 16 = 0; rw [(output_index t).2.1.1]
    | ⟨1, _⟩ => show win0_3.index t 1 * 64 = 0; rw [(output_index t).2.1.2]
  exact (Memref.read_access_unit_zero (Elt Ideal) main_v1_1 hz' (fun a => by rw [congrFun hz' a]; simp) (sqRes V c)).symm

/-! ## The three result arrays -/

theorem final2 (c : Dev nD) : (dat0 V c).arrAt 2 cfg0.N = sumRes V c := by
  refine (dat0 V c).arrAt_eq_of_cover 2 (sumRes V c) (sum_flushed V c) fun i => ⟨lastPoint, (flush0_2 lastPoint).mpr rfl, ?_⟩
  show i ∈ ((View.whole main_v1_0).slice (win0_2.rect lastPoint)).set
  rw [View.set_slice_whole, Rect.mem_set_unit]
  intro a
  have h0 : (i 0 : Nat) < 16 := (i 0).isLt
  have h1 : (i 1 : Nat) < 64 := (i 1).isLt
  match a with
  | ⟨0, _⟩ =>
    show win0_2.index lastPoint 0 * win0_2.size 0 ≤ (i 0 : Nat)
      ∧ (i 0 : Nat) < win0_2.index lastPoint 0 * win0_2.size 0 + win0_2.xsize (grid0.coords lastPoint) 0
    rw [(output_index lastPoint).1.1, show win0_2.xsize (grid0.coords lastPoint) 0 = 16 from by decide +kernel]; omega
  | ⟨1, _⟩ =>
    show win0_2.index lastPoint 1 * win0_2.size 1 ≤ (i 1 : Nat)
      ∧ (i 1 : Nat) < win0_2.index lastPoint 1 * win0_2.size 1 + win0_2.xsize (grid0.coords lastPoint) 1
    rw [(output_index lastPoint).1.2, show win0_2.xsize (grid0.coords lastPoint) 1 = 64 from by decide +kernel]; omega

theorem final3 (c : Dev nD) : (dat0 V c).arrAt 3 cfg0.N = sqRes V c := by
  refine (dat0 V c).arrAt_eq_of_cover 3 (sqRes V c) (sq_flushed V c) fun i => ⟨lastPoint, (flush0_3 lastPoint).mpr rfl, ?_⟩
  show i ∈ ((View.whole main_v1_1).slice (win0_3.rect lastPoint)).set
  rw [View.set_slice_whole, Rect.mem_set_unit]
  intro a
  have h0 : (i 0 : Nat) < 16 := (i 0).isLt
  have h1 : (i 1 : Nat) < 64 := (i 1).isLt
  match a with
  | ⟨0, _⟩ =>
    show win0_3.index lastPoint 0 * win0_3.size 0 ≤ (i 0 : Nat)
      ∧ (i 0 : Nat) < win0_3.index lastPoint 0 * win0_3.size 0 + win0_3.xsize (grid0.coords lastPoint) 0
    rw [(output_index lastPoint).2.1.1, show win0_3.xsize (grid0.coords lastPoint) 0 = 16 from by decide +kernel]; omega
  | ⟨1, _⟩ =>
    show win0_3.index lastPoint 1 * win0_3.size 1 ≤ (i 1 : Nat)
      ∧ (i 1 : Nat) < win0_3.index lastPoint 1 * win0_3.size 1 + win0_3.xsize (grid0.coords lastPoint) 1
    rw [(output_index lastPoint).2.1.2, show win0_3.xsize (grid0.coords lastPoint) 1 = 64 from by decide +kernel]; omega

theorem final4 (c : Dev nD) : (dat0 V c).arrAt 4 cfg0.N = cntRes V c := by
  refine (dat0 V c).arrAt_eq_of_cover 4 (cntRes V c) (cnt_flushed V c) fun i => ⟨lastPoint, (flush0_4 lastPoint).mpr rfl, ?_⟩
  show i ∈ ((View.whole main_v1_2).slice (win0_4.rect lastPoint)).set
  rw [View.set_slice_whole, Rect.mem_set_unit]
  intro a
  have h0 : (i 0 : Nat) < 1 := (i 0).isLt
  have h1 : (i 1 : Nat) < 16 := (i 1).isLt
  match a with
  | ⟨0, _⟩ =>
    show win0_4.index lastPoint 0 * win0_4.size 0 ≤ (i 0 : Nat)
      ∧ (i 0 : Nat) < win0_4.index lastPoint 0 * win0_4.size 0 + win0_4.xsize (grid0.coords lastPoint) 0
    rw [(output_index lastPoint).2.2.1, show win0_4.xsize (grid0.coords lastPoint) 0 = 1 from by decide +kernel]; omega
  | ⟨1, _⟩ =>
    show win0_4.index lastPoint 1 * win0_4.size 1 ≤ (i 1 : Nat)
      ∧ (i 1 : Nat) < win0_4.index lastPoint 1 * win0_4.size 1 + win0_4.xsize (grid0.coords lastPoint) 1
    rw [(output_index lastPoint).2.2.2, show win0_4.xsize (grid0.coords lastPoint) 1 = 16 from by decide +kernel]; omega

end Cert.KernelIdeal.Reg0

end
-- ==== Proof.Reg1.lean ====
/-
  The second region's result array, read as a value at the extended reals.

  Point `t` reads rows [8192 t, 8192 (t + 1)) of the features and of the id column, the two whole 16 x 64 tables, the
  weight row and the bias row, and writes back the same rows of the result: the blocks tile the array, so the array
  ends holding, at row `n` and column `c`, the feature less the mean table summed against the row's indicator,
  times the reciprocal-deviation table summed against it, times the weight, plus the bias.
-/
import proofs.«425874_j13881334301293_2_alg».proof.Proof.Gen.KernelIdeal.Frame
import proofs.«425874_j13881334301293_2_alg».proof.Proof.Pay
import Idealize.ShloMosaic.Lib.Pipeline.Value
import Idealize.ShloMosaic.Lib.Tactic

set_option maxRecDepth 16384

noncomputable section

namespace Cert.KernelIdeal.Reg1

open Cert.KernelIdeal Cert.KernelIdeal.Gen Cert.Seg
open Idealize.ShloMosaic Idealize.ShloMosaic.TcCoe Idealize.ShloMosaic.ValueIdx Idealize.SL.Sem
open Idealize.ShloMosaic.Pipeline (Dat)

/-- The zero offsets of a whole-buffer access, however they are spelt. -/
theorem zero_off : (![0, 0] : Fin 2 → Nat) = fun _ => 0 := funext fun a => by fin_cases a <;> rfl

/-- Where each window's block sits at point `t`, decided over the grid: the feature, id and result blocks at
    block row `t`, block column 0; the two tables, the weight row and the bias row at block (0, 0). -/
theorem block_place : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One place of the block. If, at the place `j = (r, q)` of the block, the feature block's entry is the feature
    array's at row `n` and column `q'`, the id block's entry in row `r` is row `n`'s id, the two table blocks'
    entries in column `q` are the tables' in column `q'`, and the weight and bias blocks' entries in column `q`
    are the rows' in column `q'`, then the body's payload at `j` is the normalised value of row `n`, column `q'`. -/
theorem payload_at_place (A0 : Fin NR → Fin 64 → EReal) (Aid : Fin NR → BitVec 32) (M I : Fin 16 → Fin 64 → EReal)
    (W B : Fin 64 → EReal)
    (v0 : Vec Ideal S8192x1 .i32) (v2 : Vec Ideal S8192x64 .f32) (v8 v11 : Vec Ideal S16x64 .f32)
    (v16 v19 : Vec Ideal S1x64 .f32)
    (j : S8192x64.Idx) (r : Fin 8192) (q : Fin 64) (hj : j = ix2 r q) (n : Fin NR) (q' : Fin 64)
    (h0 : v2 j = A0 n q') (h1 : v0 (ix2 r 0) = Aid n)
    (h2 : ∀ k : Fin 16, v8 (ix2 k q) = M k q') (h3 : ∀ k : Fin 16, v11 (ix2 k q) = I k q')
    (h4 : v16 (ix2 0 q) = W q') (h5 : v19 (ix2 0 q) = B q') :
    k1_pay1 (F := Ideal) v0 v2 v8 v11 v16 v19 j
      = ((A0 n q' - ∑ k : Fin 16, ohw (Aid n) k * M k q') * (∑ k : Fin 16, ohw (Aid n) k * I k q')) * W q' + B q' := by
  subst hj
  rw [Pay.k1_pay1_apply, h0, h1, h4, h5]
  simp only [h2, h3]

-- the buffer contents when the region is entered
variable (V : (c : Dev nD) → (b : Ref sig .tc) → Buf (Elt Ideal) ((c : Thread nD τ).loc b))

/-- Row `n`'s segment word, as the region finds the id column. -/
abbrev idw (c : Dev nD) : Fin NR → BitVec 32 := fun n => (V c main_v0 : S2097152x1.Idx → BitVec 32) (ix2 n 0)
/-- Row `n`, column `k` of the features, as the region finds them. -/
abbrev xs (c : Dev nD) : Fin NR → Fin 64 → EReal := fun n k => (V c main_arg0 : S2097152x64.Idx → EReal) (ix2 n k)
/-- The mean table and the reciprocal-deviation table, as the region finds them. -/
abbrev mt (c : Dev nD) : Fin 16 → Fin 64 → EReal := fun k j => (V c main_v6 : S16x64.Idx → EReal) (ix2 k j)
abbrev it (c : Dev nD) : Fin 16 → Fin 64 → EReal := fun k j => (V c main_v17 : S16x64.Idx → EReal) (ix2 k j)
/-- The weight row and the bias row. -/
abbrev wt (c : Dev nD) : Fin 64 → EReal := fun j => (V c main_arg2 : S1x64.Idx → EReal) (ix2 0 j)
abbrev bs (c : Dev nD) : Fin 64 → EReal := fun j => (V c main_arg3 : S1x64.Idx → EReal) (ix2 0 j)

/-- The result array as ONE function of the arrays the region finds. -/
abbrev outRes (c : Dev nD) : Buf (Elt Ideal) ((c : Thread nD τ).loc main_v18) :=
  fun i =>
    ((xs V c (i 0) (i 1) - ∑ k : Fin 16, ohw (idw V c (i 0)) k * mt V c k (i 1))
      * (∑ k : Fin 16, ohw (idw V c (i 0)) k * it V c k (i 1))) * wt V c (i 1) + bs V c (i 1)

/-- What point `t` writes back is block `t` of the result array's closed form: at each place of the block the
    payload reads the blocks' entries, and each block's entry is the array's entry where the block sits. -/
theorem block_written_back (c : Dev nD) (t : Fin cfg1.N) :
    (dat1 V c).flushed 6 t = ((cfg1.win 6).blk t).view.read (Elt Ideal) (outRes V c) := by
  show (cfg1.win 6).cut (grid1.coords t) ((dat1 V c).after 6 t) = _
  rw [after1_6]
  unfold out1_6
  rw [View.canon_unit_zero zero_off]
  simp only [View.ld_unit_zero (S := S8192x1) zero_off, View.ld_unit_zero (S := S8192x64) zero_off,
    View.ld_unit_zero (S := S16x64) zero_off, View.ld_unit_zero (S := S1x64) zero_off]
  funext j
  show k1_pay1 (F := Ideal) (iblk1 V c 1 t) (iblk1 V c 0 t) (iblk1 V c 2 t) (iblk1 V c 3 t) (iblk1 V c 4 t) (iblk1 V c 5 t) j
    = outRes V c (((cfg1.win 6).blk t).view.emb j)
  obtain ⟨a00, a01, a10, a11, a20, a21, a30, a31, a40, a41, a50, a51, a60, a61⟩ := block_place t
  have hr : (j 0).val < 8192 := (j 0).isLt
  have hq : (j 1).val < 64 := (j 1).isLt
  refine payload_at_place (xs V c) (idw V c) (mt V c) (it V c) (wt V c) (bs V c) _ _ _ _ _ _ j (j 0) (j 1) (eq_ix2 j)
    ((((cfg1.win 6).blk t).view.emb j) 0) ((((cfg1.win 6).blk t).view.emb j) 1) ?_ ?_ ?_ ?_ ?_ ?_
  · show (V c main_arg0 : S2097152x64.Idx → EReal) (((cfg1.win 0).blk t).view.emb j)
      = (V c main_arg0 : S2097152x64.Idx → EReal) (ix2 ((((cfg1.win 6).blk t).view.emb j) 0) ((((cfg1.win 6).blk t).view.emb j) 1))
    refine congrArg _ ?_
    funext a; apply Fin.ext
    match a with
    | ⟨0, _⟩ => show win1_0.index t (0 : Fin 2) * 8192 + 1 * (j 0).val = win1_6.index t (0 : Fin 2) * 8192 + 1 * (j 0).val; omega
    | ⟨1, _⟩ => show win1_0.index t (1 : Fin 2) * 64 + 1 * (j 1).val = win1_6.index t (1 : Fin 2) * 64 + 1 * (j 1).val; omega
  · show (V c main_v0 : S2097152x1.Idx → BitVec 32) (((cfg1.win 1).blk t).view.emb (ix2 (j 0) 0))
      = (V c main_v0 : S2097152x1.Idx → BitVec 32) (ix2 ((((cfg1.win 6).blk t).view.emb j) 0) 0)
    refine congrArg _ ?_
    funext a; apply Fin.ext
    match a with
    | ⟨0, _⟩ => show win1_1.index t (0 : Fin 2) * 8192 + 1 * (j 0).val = win1_6.index t (0 : Fin 2) * 8192 + 1 * (j 0).val; omega
    | ⟨1, _⟩ => show win1_1.index t (1 : Fin 2) * 1 + 1 * 0 = 0; omega
  · intro k
    show (V c main_v6 : S16x64.Idx → EReal) (((cfg1.win 2).blk t).view.emb (ix2 k (j 1)))
      = (V c main_v6 : S16x64.Idx → EReal) (ix2 k ((((cfg1.win 6).blk t).view.emb j) 1))
    refine congrArg _ ?_
    funext a; apply Fin.ext
    match a with
    | ⟨0, _⟩ => show win1_2.index t (0 : Fin 2) * 16 + 1 * k.val = k.val; omega
    | ⟨1, _⟩ => show win1_2.index t (1 : Fin 2) * 64 + 1 * (j 1).val = win1_6.index t (1 : Fin 2) * 64 + 1 * (j 1).val; omega
  · intro k
    show (V c main_v17 : S16x64.Idx → EReal) (((cfg1.win 3).blk t).view.emb (ix2 k (j 1)))
      = (V c main_v17 : S16x64.Idx → EReal) (ix2 k ((((cfg1.win 6).blk t).view.emb j) 1))
    refine congrArg _ ?_
    funext a; apply Fin.ext
    match a with
    | ⟨0, _⟩ => show win1_3.index t (0 : Fin 2) * 16 + 1 * k.val = k.val; omega
    | ⟨1, _⟩ => show win1_3.index t (1 : Fin 2) * 64 + 1 * (j 1).val = win1_6.index t (1 : Fin 2) * 64 + 1 * (j 1).val; omega
  · show (V c main_arg2 : S1x64.Idx → EReal) (((cfg1.win 4).blk t).view.emb (ix2 0 (j 1)))
      = (V c main_arg2 : S1x64.Idx → EReal) (ix2 0 ((((cfg1.win 6).blk t).view.emb j) 1))
    refine congrArg _ ?_
    funext a; apply Fin.ext
    match a with
    | ⟨0, _⟩ => show win1_4.index t (0 : Fin 2) * 1 + 1 * 0 = 0; omega
    | ⟨1, _⟩ => show win1_4.index t (1 : Fin 2) * 64 + 1 * (j 1).val = win1_6.index t (1 : Fin 2) * 64 + 1 * (j 1).val; omega
  · show (V c main_arg3 : S1x64.Idx → EReal) (((cfg1.win 5).blk t).view.emb (ix2 0 (j 1)))
      = (V c main_arg3 : S1x64.Idx → EReal) (ix2 0 ((((cfg1.win 6).blk t).view.emb j) 1))
    refine congrArg _ ?_
    funext a; apply Fin.ext
    match a with
    | ⟨0, _⟩ => show win1_5.index t (0 : Fin 2) * 1 + 1 * 0 = 0; omega
    | ⟨1, _⟩ => show win1_5.index t (1 : Fin 2) * 64 + 1 * (j 1).val = win1_6.index t (1 : Fin 2) * 64 + 1 * (j 1).val; omega

/-- A place of the result array is in point `t`'s block iff each coordinate is in the block's range on its axis. -/
theorem mem_block (t : Fin cfg1.N) (i : S2097152x64.Idx) :
    i ∈ ((cfg1.win 6).blk t).view.set ↔ ∀ a : Fin 2, win1_6.index t a * S8192x64.size a ≤ (i a).val ∧ (i a).val < win1_6.index t a * S8192x64.size a + S8192x64.size a := by
  show i ∈ ((View.whole main_v18).slice (win1_6.rect t)).set ↔ _
  rw [View.set_slice_whole, Rect.mem_set_unit]
  exact Iff.rfl

/-- The blocks tile the result array: row `n` lies in the block of the point `n / 8192`. -/
theorem blocks_cover (i : S2097152x64.Idx) :
    ∃ t : Fin cfg1.N, (cfg1.win 6).flush t = true ∧ i ∈ ((cfg1.win 6).blk t).view.set := by
  have hi0 : (i 0).val < 2097152 := (i 0).isLt
  have hi1 : (i 1).val < 64 := (i 1).isLt
  have hN : (i 0).val / 8192 < cfg1.N := by
    show (i 0).val / 8192 < grid1.N
    rw [N_1]; omega
  refine ⟨⟨(i 0).val / 8192, hN⟩, flush1_6 _, ?_⟩
  rw [mem_block]
  obtain ⟨-, -, -, -, -, -, -, -, -, -, -, -, a60, a61⟩ := block_place ⟨(i 0).val / 8192, hN⟩
  have a60' : win1_6.index ⟨(i 0).val / 8192, hN⟩ (0 : Fin 2) = (i 0).val / 8192 := a60
  intro a
  match a with
  | ⟨0, _⟩ => show win1_6.index ⟨(i 0).val / 8192, hN⟩ (0 : Fin 2) * 8192 ≤ (i 0).val ∧ (i 0).val < win1_6.index ⟨(i 0).val / 8192, hN⟩ (0 : Fin 2) * 8192 + 8192; omega
  | ⟨1, _⟩ => show win1_6.index ⟨(i 0).val / 8192, hN⟩ (1 : Fin 2) * 64 ≤ (i 1).val ∧ (i 1).val < win1_6.index ⟨(i 0).val / 8192, hN⟩ (1 : Fin 2) * 64 + 64; omega

theorem final6 (c : Dev nD) : (dat1 V c).arrAt 6 cfg1.N = outRes V c :=
  (dat1 V c).arrAt_eq_of_cover 6 (outRes V c) (fun t _ => block_written_back V c t) blocks_cover

end Cert.KernelIdeal.Reg1

end
-- ==== Proof.KValue.lean ====
/-
  The idealized kernel's result array as ONE function of its arguments.

  Between the launch and the return the buffers pass four boundaries.  The ids become a column (a reshape); the first
  region leaves the per-segment column sums, sums of squares and row counts; the host operations between the regions
  turn these into the mean table `sum / max(count, 1)` and the reciprocal-deviation table
  `1 / sqrt (max (sumsq / max(count, 1) - mean * mean, 0) + eps)`; the second region leaves, at row `n` and column
  `c`, the normalised row `rowK`.  The features, the id column, the weight and the bias are rewritten by nothing on the
  way.
-/
import proofs.«425874_j13881334301293_2_alg».proof.Proof.KRun
import proofs.«425874_j13881334301293_2_alg».proof.Proof.Reg0
import proofs.«425874_j13881334301293_2_alg».proof.Proof.Reg1
import Idealize.ShloMosaic.Lib.StableHlo.Run
import Idealize.ShloMosaic.Lib.StableHlo.Predicate
import Idealize.ShloMosaic.Lib.Pipeline.Value

set_option maxRecDepth 16384

noncomputable section

namespace Cert.KernelIdeal.KValue

open Cert.KernelIdeal Cert.KernelIdeal.Gen Cert.Seg
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The arguments, typed: row `n`'s segment word, the features, the weight row and the bias row. -/
abbrev idsOf (c : Dev nD) : S2097152.Idx → BitVec 32 := m ((c.tc : Thread nD τ).loc main_arg1)
abbrev wOf (c : Dev nD) : Fin NR → BitVec 32 := fun n => idsOf m c (ix1 n)
abbrev xOf (c : Dev nD) : Fin NR → Fin 64 → EReal := fun n k => (m ((c.tc : Thread nD τ).loc main_arg0) : S2097152x64.Idx → EReal) (ix2 n k)
abbrev wtOf (c : Dev nD) : Fin 64 → EReal := fun k => (m ((c.tc : Thread nD τ).loc main_arg2) : S1x64.Idx → EReal) (ix2 0 k)
abbrev bsOf (c : Dev nD) : Fin 64 → EReal := fun k => (m ((c.tc : Thread nD τ).loc main_arg3) : S1x64.Idx → EReal) (ix2 0 k)

/-! ## Before the first region: the id column is the ids reshaped -/

theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))
theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))
theorem W1_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))

theorem W1_v0 (c : Dev nD) : W1 m ρ c (Proc.devRef .tc main_v0)
    = shapeCast S2097152x1 (m ((c : Thread nD τ).loc main_arg1)) shapeCasts_S2097152_S2097152x1 := by
  show StableHlo.after hostOps0 (W0 m ρ c) (Proc.devRef .tc main_v0) = _
  after_results
  rfl

/-- The id column at row `n` is the ids at `n`. -/
theorem W1_v0_apply (c : Dev nD) (n : Fin NR) :
    (W1 m ρ c (Proc.devRef .tc main_v0) : S2097152x1.Idx → BitVec 32) (ix2 n 0) = wOf m c n := by
  rw [W1_v0]
  refine shapeCast_apply _ _ _ (ix1 n) ?_
  rw [Shape.rowMajor_val_one, Shape.rowMajor_val_two]
  show n.val = n.val * 1 + 0
  omega

/-! ## After the first region: its three results; the features, the id column, the weight and the bias as before -/

theorem W2_v1_0 (c : Dev nD) : W2 m ρ c (Proc.devRef .tc main_v1_0) = Reg0.sumRes (V1 m ρ) c :=
  (W2_arr m ρ c 2).trans (Reg0.final2 (V1 m ρ) c)
theorem W2_v1_1 (c : Dev nD) : W2 m ρ c (Proc.devRef .tc main_v1_1) = Reg0.sqRes (V1 m ρ) c :=
  (W2_arr m ρ c 3).trans (Reg0.final3 (V1 m ρ) c)
theorem W2_v1_2 (c : Dev nD) : W2 m ρ c (Proc.devRef .tc main_v1_2) = Reg0.cntRes (V1 m ρ) c :=
  (W2_arr m ρ c 4).trans (Reg0.final4 (V1 m ρ) c)
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_v0 (c : Dev nD) : W2 m ρ c (Proc.devRef .tc main_v0) = W1 m ρ c (Proc.devRef .tc main_v0) :=
  (W2_arr m ρ c 1).trans (((dat0 (V1 m ρ) c).arrAt_in 1 rfl _).trans (A_eq0 (V1 m ρ) c 1))
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)

/-- The first region reads the id column and the features it was entered with: the arguments'. -/
theorem idw_V1 (c : Dev nD) : Reg0.idw (V1 m ρ) c = wOf m c := funext fun n => W1_v0_apply m ρ c n
theorem xs_V1 (c : Dev nD) : Reg0.xs (V1 m ρ) c = xOf m c := by
  funext n k
  show (W1 m ρ c (Proc.devRef .tc main_arg0) : S2097152x64.Idx → EReal) (ix2 n k) = _
  rw [W1_arg0]

/-! ## The host operations between the regions: the two tables -/

theorem W3_arg0 (c : Dev nD) : W3 m ρ c (Proc.devRef .tc main_arg0) = m ((c : Thread nD τ).loc main_arg0) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg0) = W2 m ρ c (Proc.devRef .tc main_arg0)).trans (W2_arg0 m ρ c)
theorem W3_arg2 (c : Dev nD) : W3 m ρ c (Proc.devRef .tc main_arg2) = m ((c : Thread nD τ).loc main_arg2) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg2) = W2 m ρ c (Proc.devRef .tc main_arg2)).trans (W2_arg2 m ρ c)
theorem W3_arg3 (c : Dev nD) : W3 m ρ c (Proc.devRef .tc main_arg3) = m ((c : Thread nD τ).loc main_arg3) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_arg3) = W2 m ρ c (Proc.devRef .tc main_arg3)).trans (W2_arg3 m ρ c)
theorem W3_v0 (c : Dev nD) : W3 m ρ c (Proc.devRef .tc main_v0) = W1 m ρ c (Proc.devRef .tc main_v0) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : W3 m ρ c (Proc.devRef .tc main_v0) = W2 m ρ c (Proc.devRef .tc main_v0)).trans (W2_v0 m ρ c)

/-- The divisor table: the counts as a column, raised to at least one, laid along the columns. -/
abbrev denV (c : Dev nD) : FVec Ideal S16x64 .f32 :=
  broadcastInDim S16x64 ![0, 1] bcast_S16x1_S16x64_0_1
    (maximumf (shapeCast S16x1 (W2 m ρ c (Proc.devRef .tc main_v1_2)) shapeCasts_S1x16_S16x1)
      (broadcastInDim S16x1 ![] bcast_S_S16x1 (constant (F := Ideal) S_ .f32 0x3F800000#32)))
/-- The mean table. -/
abbrev meanV (c : Dev nD) : FVec Ideal S16x64 .f32 :=
  Host.divf (F := Ideal) (W2 m ρ c (Proc.devRef .tc main_v1_0)) (denV m ρ c)
/-- The reciprocal-deviation table. -/
abbrev invV (c : Dev nD) : FVec Ideal S16x64 .f32 :=
  Host.divf (F := Ideal) (broadcastInDim S16x64 ![] bcast_S_S16x64 (constant (F := Ideal) S_ .f32 0x3F800000#32))
    (Host.sqrt (F := Ideal) (addf
      (maximumf (subf (Host.divf (F := Ideal) (W2 m ρ c (Proc.devRef .tc main_v1_1)) (denV m ρ c)) (mulf (meanV m ρ c) (meanV m ρ c)))
        (broadcastInDim S16x64 ![] bcast_S_S16x64 (constant (F := Ideal) S_ .f32 0x00000000#32)))
      (broadcastInDim S16x64 ![] bcast_S_S16x64 (constant (F := Ideal) S_ .f32 0x322BCC77#32))))

theorem W3_v6 (c : Dev nD) : W3 m ρ c (Proc.devRef .tc main_v6) = meanV m ρ c := by
  show StableHlo.after hostOps1 (W2 m ρ c) (Proc.devRef .tc main_v6) = _
  after_results
  rfl
theorem W3_v17 (c : Dev nD) : W3 m ρ c (Proc.devRef .tc main_v17) = invV m ρ c := by
  show StableHlo.after hostOps1 (W2 m ρ c) (Proc.devRef .tc main_v17) = _
  after_results
  rfl

/-! ## The tables at an index -/

/-- A printed float word laid over any shape reads the word everywhere. -/
theorem bcastW {t : Shape} (h : (⟨0, ![]⟩ : Shape).BroadcastsInDim t ![]) (w : BitVec 32) (j : t.Idx) :
    broadcastInDim t ![] h (constant (F := Ideal) S_ .f32 w) j = Ideal.ofBits .f32 w := by
  rw [StableHlo.Predicate.bcast_scalar h (by decide)]
  rfl

theorem cnt_apply (c : Dev nD) (k : Fin 16) :
    (W2 m ρ c (Proc.devRef .tc main_v1_2) : S1x16.Idx → EReal) (ix2 0 k) = segCount (wOf m c) k := by
  rw [W2_v1_2]
  show segCount (Reg0.idw (V1 m ρ) c) k = _
  rw [idw_V1]
theorem sum_apply (c : Dev nD) (k : Fin 16) (j : Fin 64) :
    (W2 m ρ c (Proc.devRef .tc main_v1_0) : S16x64.Idx → EReal) (ix2 k j) = segSum (wOf m c) (fun n => xOf m c n j) k := by
  rw [W2_v1_0]
  show segSum (Reg0.idw (V1 m ρ) c) (fun n => Reg0.xs (V1 m ρ) c n j) k = _
  rw [idw_V1, xs_V1]
theorem sq_apply (c : Dev nD) (k : Fin 16) (j : Fin 64) :
    (W2 m ρ c (Proc.devRef .tc main_v1_1) : S16x64.Idx → EReal) (ix2 k j)
      = segSum (wOf m c) (fun n => xOf m c n j * xOf m c n j) k := by
  rw [W2_v1_1]
  show segSum (Reg0.idw (V1 m ρ) c) (fun n => Reg0.xs (V1 m ρ) c n j * Reg0.xs (V1 m ρ) c n j) k = _
  rw [idw_V1, xs_V1]

/-- The divisor at `(k, j)`: segment `k`'s count raised to at least one. -/
theorem den_apply (c : Dev nD) (k : Fin 16) (j : Fin 64) : denV m ρ c (ix2 k j) = den (segCount (wOf m c) k) := by
  have e : (ix2 k j : S16x64.Idx) = StableHlo.Predicate.ij k j := rfl
  rw [e]
  unfold denV
  rw [StableHlo.Predicate.bcast_of_col]
  rw [maximumf_apply, bcastW, shapeCast_apply _ _ _ (ix2 0 k) (by
    rw [Shape.rowMajor_val_two, Shape.rowMajor_val_two]
    show 0 * 16 + k.val = k.val * 1 + 0
    omega), cnt_apply]
  rfl

theorem mean_apply (c : Dev nD) (k : Fin 16) (j : Fin 64) : meanV m ρ c (ix2 k j) = meanTab (wOf m c) (xOf m c) k j := by
  show Ideal.div ((W2 m ρ c (Proc.devRef .tc main_v1_0) : S16x64.Idx → EReal) (ix2 k j)) (denV m ρ c (ix2 k j)) = _
  rw [sum_apply, den_apply]
  rfl

theorem inv_apply (c : Dev nD) (k : Fin 16) (j : Fin 64) :
    invV m ρ c (ix2 k j) = invStd (varTabK (wOf m c) (xOf m c) k j) := by
  show Ideal.div (broadcastInDim S16x64 ![] bcast_S_S16x64 (constant (F := Ideal) S_ .f32 0x3F800000#32) (ix2 k j))
      (Ideal.sqrt (max (Ideal.div ((W2 m ρ c (Proc.devRef .tc main_v1_1) : S16x64.Idx → EReal) (ix2 k j)) (denV m ρ c (ix2 k j))
            - meanV m ρ c (ix2 k j) * meanV m ρ c (ix2 k j))
          (broadcastInDim S16x64 ![] bcast_S_S16x64 (constant (F := Ideal) S_ .f32 0x00000000#32) (ix2 k j))
        + broadcastInDim S16x64 ![] bcast_S_S16x64 (constant (F := Ideal) S_ .f32 0x322BCC77#32) (ix2 k j))) = _
  rw [bcastW, bcastW, bcastW, sq_apply, den_apply, mean_apply]
  rfl

/-! ## The result -/

/-- The kernel's result array, as ONE function of the arguments. -/
abbrev kerRes (c : Dev nD) : Buf (Elt Ideal) ((c.tc : Thread nD τ).loc main_v18) :=
  fun i => rowK (wOf m c) (xOf m c) (wtOf m c) (bsOf m c) (i 0) (i 1)

theorem kernel_value (c : Dev nD) : W4 m ρ c (Proc.devRef .tc main_v18) = kerRes m c := by
  rw [show W4 m ρ c (Proc.devRef .tc main_v18) = (dat1 (V3 m ρ) c).arrAt 6 cfg1.N from W4_arr m ρ c 6, Reg1.final6]
  have h1 : Reg1.idw (V3 m ρ) c = wOf m c := funext fun n =>
    (congrFun (W3_v0 m ρ c) (ix2 n 0)).trans (W1_v0_apply m ρ c n)
  have h2 : Reg1.xs (V3 m ρ) c = xOf m c := by
    funext n k
    show (W3 m ρ c (Proc.devRef .tc main_arg0) : S2097152x64.Idx → EReal) (ix2 n k) = _
    rw [W3_arg0]
  have h3 : Reg1.mt (V3 m ρ) c = meanTab (wOf m c) (xOf m c) := by
    funext k j
    show (W3 m ρ c (Proc.devRef .tc main_v6) : S16x64.Idx → EReal) (ix2 k j) = _
    rw [W3_v6, mean_apply]
  have h4 : Reg1.it (V3 m ρ) c = fun k j => invStd (varTabK (wOf m c) (xOf m c) k j) := by
    funext k j
    show (W3 m ρ c (Proc.devRef .tc main_v17) : S16x64.Idx → EReal) (ix2 k j) = _
    rw [W3_v17, inv_apply]
  have h5 : Reg1.wt (V3 m ρ) c = wtOf m c := by
    funext k
    show (W3 m ρ c (Proc.devRef .tc main_arg2) : S1x64.Idx → EReal) (ix2 0 k) = _
    rw [W3_arg2]
  have h6 : Reg1.bs (V3 m ρ) c = bsOf m c := by
    funext k
    show (W3 m ρ c (Proc.devRef .tc main_arg3) : S1x64.Idx → EReal) (ix2 0 k) = _
    rw [W3_arg3]
  funext i
  show ((Reg1.xs (V3 m ρ) c (i 0) (i 1) - ∑ k : Fin 16, ohw (Reg1.idw (V3 m ρ) c (i 0)) k * Reg1.mt (V3 m ρ) c k (i 1))
      * (∑ k : Fin 16, ohw (Reg1.idw (V3 m ρ) c (i 0)) k * Reg1.it (V3 m ρ) c k (i 1))) * Reg1.wt (V3 m ρ) c (i 1)
      + Reg1.bs (V3 m ρ) c (i 1) = _
  rw [h1, h2, h3, h4, h5, h6]
  rfl

end Cert.KernelIdeal.KValue

end
-- ==== Proof.RefValue.lean ====
/-
  The reference's result, read as a value at the extended reals.

  Its three accumulating scatters are per-segment sums: an update row lands on table row `b` exactly when its id,
  read signed, is `b` — which for `b` below sixteen says the id word is `b` — and a row whose id is out of range is
  dropped; so the counts, the column sums and the sums of squared deviations are `segCount` / `segSum`.  Its two
  gathers read, for row `n`, the table row `gRow n`: the id with sixteen added when negative, read signed and
  clamped into [0, 15].  Everything else is pointwise, so the result at `(n, c)` is the normalised row `rowR`.
-/
import proofs.«425874_j13881334301293_2_alg».proof.Proof.Gen.ReferenceIdeal.Read
import proofs.«425874_j13881334301293_2_alg».proof.Proof.Spec
import Idealize.ShloMosaic.Lib.ValueIdx
import Idealize.ShloMosaic.Lib.Pipeline.Value
import Idealize.ShloMosaic.Lib.StableHlo.Predicate

set_option maxRecDepth 16384

noncomputable section

namespace Cert.ReferenceIdeal.RefValue

open Cert.ReferenceIdeal Cert.ReferenceIdeal.Gen Cert.Seg
open Idealize.ShloMosaic Idealize.ShloMosaic.TcCoe Idealize.ShloMosaic.ValueIdx Idealize.SL.Sem

/-! ## A row scatter: one id per update row, the update's column kept -/

section RowScatter
variable {R N C : Nat}

/-- The dimension numbers of a scatter of `N` rows of `C` columns into a table of `R` rows, one row id per update row. -/
abbrev rowScatter (R N C : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable (wf : ScatterDims.WF ⟨2, ![R, C]⟩ ⟨2, ![N, 1]⟩ ⟨2, ![N, C]⟩ [1] [0] [0] 1)

theorem rowScatter_start_0 {w : Nat} (j : (⟨2, ![N, C]⟩ : Shape).Idx) (idx : IVec ⟨2, ![N, 1]⟩ w) :
    (rowScatter R N C wf).start j idx 0 = (idx (ix2 (j 0) 0)).toInt := by
  unfold ScatterDims.start
  rw [dif_pos (show (0 : Fin 2) ∈ (rowScatter R N C wf).scatterDimsToOperandDims from List.mem_singleton.mpr rfl)]
  have hsi : (rowScatter R N C wf).siIdx j ⟨List.idxOf (0 : Fin 2) (rowScatter R N C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_start_1 {w : Nat} (j : (⟨2, ![N, C]⟩ : Shape).Idx) (idx : IVec ⟨2, ![N, 1]⟩ w) :
    (rowScatter R N C wf).start j idx 1 = 0 := by
  unfold ScatterDims.start
  rw [dif_neg (show ¬ (1 : Fin 2) ∈ (rowScatter R N C wf).scatterDimsToOperandDims from (by decide : ¬ (1 : Fin 2) ∈ ([0] : List (Fin 2))))]

theorem rowScatter_window_0 (j : (⟨2, ![N, C]⟩ : Shape).Idx) :
    (rowScatter R N C wf).window j 0 = 0 := by
  unfold ScatterDims.window
  rw [dif_neg (show ¬ (0 : Fin 2) ∈ (rowScatter R N C wf).sKept from (by decide : ¬ (0 : Fin 2) ∈ ([1] : List (Fin 2))))]

theorem rowScatter_window_1 (j : (⟨2, ![N, C]⟩ : Shape).Idx) :
    (rowScatter R N C wf).window j 1 = (j 1).val := by
  unfold ScatterDims.window
  rw [dif_pos (show (1 : Fin 2) ∈ (rowScatter R N C wf).sKept from (List.mem_singleton.mpr rfl : (1 : Fin 2) ∈ ([1] : List (Fin 2))))]
  rfl

/-- Update `(n, c')` lands on table element `(b, c)` exactly when its row's id, read signed, is `b` and its column is `c`. -/
theorem rowScatter_resultIdx?_iff {w : Nat} (idx : IVec ⟨2, ![N, 1]⟩ w) (n : Fin N) (c' c : Fin C) (b : Fin R) :
    (rowScatter R N C wf).resultIdx? (ix2 n c') idx = some (ix2 b c) ↔ (idx (ix2 n 0)).toInt = (b.val : Int) ∧ c' = c := by
  unfold ScatterDims.resultIdx?
  have h0 : (rowScatter R N C wf).start (ix2 n c') idx 0 + ((rowScatter R N C wf).window (ix2 n c') 0 : Int) = (idx (ix2 n 0)).toInt := by
    rw [rowScatter_start_0, rowScatter_window_0]; simp <;> rfl
  have h1 : (rowScatter R N C wf).start (ix2 n c') idx 1 + ((rowScatter R N C wf).window (ix2 n c') 1 : Int) = (c'.val : Int) := by
    rw [rowScatter_start_1, rowScatter_window_1]; simp <;> rfl
  constructor
  · intro h
    split at h
    · rename_i hr
      have hf := Option.some.inj h
      have e0 := congrArg (fun f => ((f 0 : Fin _) : Nat)) hf
      have e1 := congrArg (fun f => ((f 1 : Fin _) : Nat)) hf
      simp only at e0 e1
      have hr0 := hr 0
      have hr1 := hr 1
      rw [h0] at hr0 e0
      rw [h1] at hr1 e1
      refine ⟨?_, Fin.ext ?_⟩
      · change ((idx (ix2 n 0)).toInt.toNat) = b.val at e0
        omega
      · change ((c'.val : Int).toNat) = c.val at e1
        omega
    · exact absurd h (by simp)
  · rintro ⟨hb, rfl⟩
    have hr : ∀ a : Fin 2, 0 ≤ (rowScatter R N C wf).start (ix2 n c') idx a + ((rowScatter R N C wf).window (ix2 n c') a : Int)
        ∧ (rowScatter R N C wf).start (ix2 n c') idx a + ((rowScatter R N C wf).window (ix2 n c') a : Int) < ((⟨2, ![R, C]⟩ : Shape).size a : Nat) := by
      intro a
      match a with
      | ⟨0, _⟩ =>
        have := b.isLt
        change 0 ≤ (rowScatter R N C wf).start (ix2 n c') idx 0 + ((rowScatter R N C wf).window (ix2 n c') 0 : Int) ∧
          (rowScatter R N C wf).start (ix2 n c') idx 0 + ((rowScatter R N C wf).window (ix2 n c') 0 : Int) < (R : Nat)
        rw [h0, hb]; omega
      | ⟨1, _⟩ =>
        have := c'.isLt
        change 0 ≤ (rowScatter R N C wf).start (ix2 n c') idx 1 + ((rowScatter R N C wf).window (ix2 n c') 1 : Int) ∧
          (rowScatter R N C wf).start (ix2 n c') idx 1 + ((rowScatter R N C wf).window (ix2 n c') 1 : Int) < (C : Nat)
        rw [h1]; omega
    rw [dif_pos hr]
    congr 1
    funext a
    refine Fin.ext ?_
    match a with
    | ⟨0, _⟩ =>
      change ((rowScatter R N C wf).start (ix2 n c') idx 0 + ((rowScatter R N C wf).window (ix2 n c') 0 : Int)).toNat = b.val
      rw [h0, hb]; simp
    | ⟨1, _⟩ =>
      change ((rowScatter R N C wf).start (ix2 n c') idx 1 + ((rowScatter R N C wf).window (ix2 n c') 1 : Int)).toNat = c'.val
      rw [h1]; simp

end RowScatter

/-! ## Words below sixteen -/

/-- A word read signed is `b < 16` exactly when it is the word `b`. -/
theorem toInt_eq_iff (w : BitVec 32) (b : Fin 16) : w.toInt = (b.val : Int) ↔ w = BitVec.ofNat 32 b.val := by
  have hb : b.val < 2 ^ 31 := by have := b.isLt; omega
  constructor
  · intro h
    apply BitVec.eq_of_toInt_eq
    rw [h, StableHlo.Predicate.toInt_ofNat_small _ hb]
  · rintro rfl; exact StableHlo.Predicate.toInt_ofNat_small _ hb

/-- Keeping a term when the id, read signed, is `b` is multiplying it by the indicator. -/
theorem ite_eq_ohw_mul (w : BitVec 32) (b : Fin 16) (y : EReal) :
    (if w.toInt = (b.val : Int) then y else 0) = ohw w b * y := by
  unfold ohw
  by_cases h : w = BitVec.ofNat 32 b.val
  · rw [if_pos ((toInt_eq_iff w b).mpr h), if_pos h, one_mul]
  · rw [if_neg (fun h' => h ((toInt_eq_iff w b).mp h')), if_neg h, zero_mul]

/-! ## The accumulating row scatter as a sum over the rows -/

section RowScatterSum
variable {R N C : Nat}
variable (wf : ScatterDims.WF ⟨2, ![R, C]⟩ ⟨2, ![N, 1]⟩ ⟨2, ![N, C]⟩ [1] [0] [0] 1)

/-- Table element `(b, c)` receives, of every update row whose id read signed is `b`, the element of column `c`. -/
theorem rowScatter_add_apply {w : Nat} (x : (⟨2, ![R, C]⟩ : Shape).Idx → EReal) (idx : IVec ⟨2, ![N, 1]⟩ w)
    (upd : (⟨2, ![N, C]⟩ : Shape).Idx → EReal) (b : Fin R) (c : Fin C) :
    Ideal.hostScatterAdd (rowScatter R N C wf) x idx upd (ix2 b c)
      = x (ix2 b c) + ∑ n : Fin N, if (idx (ix2 n 0)).toInt = (b.val : Int) then upd (ix2 n c) else 0 := by
  unfold Ideal.hostScatterAdd
  congr 1
  rw [Finset.sum_filter, sum_idx2]
  refine Finset.sum_congr rfl fun n _ => ?_
  rw [Finset.sum_eq_single c]
  · exact if_congr ((rowScatter_resultIdx?_iff wf idx n c c b).trans (and_iff_left rfl)) rfl rfl
  · intro c' _ hne
    rw [if_neg]
    intro h
    exact hne ((rowScatter_resultIdx?_iff wf idx n c' c b).mp h).2
  · intro h; exact absurd (Finset.mem_univ _) h

end RowScatterSum

/-- Into a table of zeros, sixteen rows: element `(b, c)` is the indicator-weighted sum of column `c` of the updates. -/
theorem scatter_zero_apply {N C : Nat} (wf : ScatterDims.WF ⟨2, ![16, C]⟩ ⟨2, ![N, 1]⟩ ⟨2, ![N, C]⟩ [1] [0] [0] 1)
    (x : (⟨2, ![16, C]⟩ : Shape).Idx → EReal) (hx : ∀ i, x i = zeroW) (idx : IVec ⟨2, ![N, 1]⟩ 32)
    (upd : (⟨2, ![N, C]⟩ : Shape).Idx → EReal) (b : Fin 16) (c : Fin C) :
    Ideal.hostScatterAdd (rowScatter 16 N C wf) x idx upd (ix2 b c) = ∑ n : Fin N, ohw (idx (ix2 n 0)) b * upd (ix2 n c) := by
  rw [rowScatter_add_apply, hx, zeroW_eq, zero_add]
  exact Finset.sum_congr rfl fun n _ => ite_eq_ohw_mul _ _ _

/-! ## A row gather: one id per result row, the result's column kept -/

section RowGather
variable {R N C : Nat}

/-- The dimension numbers of a gather of `N` rows of `C` columns out of a table of `R` rows, one row id per result row. -/
abbrev rowGather (R N C : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![R, C]⟩ ⟨2, ![N, 1]⟩ ⟨2, ![N, C]⟩ [1] [0] [] [0] [] 1 ![1, C])

theorem rowGather_operandIdx_0 {w : Nat} (j : (⟨2, ![N, C]⟩ : Shape).Idx) (idx : IVec ⟨2, ![N, 1]⟩ w) :
    ((rowGather R N C wf).operandIdx j idx 0).val = min (idx (ix2 (j 0) 0)).toInt.toNat (R - 1) := by
  show (rowGather R N C wf).start j idx 0 + (rowGather R N C wf).batchCoord j 0 + (rowGather R N C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather R N C wf).startIndexMap from List.mem_singleton.mpr rfl)]
  have hsi : (rowGather R N C wf).siIdx j ⟨List.idxOf (0 : Fin 2) (rowGather R N C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowGather_operandIdx_1 {w : Nat} (j : (⟨2, ![N, C]⟩ : Shape).Idx) (idx : IVec ⟨2, ![N, 1]⟩ w) :
    ((rowGather R N C wf).operandIdx j idx 1).val = (j 1).val := by
  show (rowGather R N C wf).start j idx 1 + (rowGather R N C wf).batchCoord j 1 + (rowGather R N C wf).offCoord j 1 = _
  rw [GatherDims.batchCoord_eq_zero _ _ _ List.not_mem_nil]
  unfold GatherDims.start GatherDims.offCoord
  rw [dif_neg (show ¬ (1 : Fin 2) ∈ (rowGather R N C wf).startIndexMap from (by decide : ¬ (1 : Fin 2) ∈ ([0] : List (Fin 2)))),
    dif_pos (show (1 : Fin 2) ∈ (rowGather R N C wf).sKept from (List.mem_singleton.mpr rfl : (1 : Fin 2) ∈ ([1] : List (Fin 2))))]
  simp only [Nat.add_zero, Nat.zero_add]
  rfl

/-- The gather read at `(n, c)`: the table at the row the id names, read signed and clamped into `[0, R − 1]`, column `c`. -/
theorem rowGather_apply {α : Type} {w : Nat} (hR : 0 < R) (x : (⟨2, ![R, C]⟩ : Shape).Idx → α) (idx : IVec ⟨2, ![N, 1]⟩ w)
    (n : Fin N) (c : Fin C) :
    Host.gather (rowGather R N C wf) x idx (ix2 n c) = x (ix2 ⟨min (idx (ix2 n 0)).toInt.toNat (R - 1), by omega⟩ c) := by
  unfold Host.gather
  congr 1
  funext a
  refine Fin.ext ?_
  match a with
  | ⟨0, _⟩ => exact rowGather_operandIdx_0 wf (ix2 n c) idx
  | ⟨1, _⟩ => exact rowGather_operandIdx_1 wf (ix2 n c) idx

end RowGather

/-! ## The wrapped id of an in-range row -/

/-- A word below sixteen is not negative: compared signed with zero it gives the cleared bit. -/
theorem slt_zero_of_lt_sixteen : ∀ k : Fin 16, IntOp.cmpi .slt (BitVec.ofNat 32 k.val) 0#32 = 0#1 := by decide

/-- Where the id is the word `k < 16`, the wrapping select keeps it. -/
theorem wrapped_of_eq (ids : S2097152.Idx → BitVec 32) (n : Fin NR) (k : Fin 16) (h : ids (ix1 n) = BitVec.ofNat 32 k.val) :
    (Read.val_main_v15 (F := Ideal) ids) (ix1 n) = BitVec.ofNat 32 k.val := by
  rw [Read.val_main_v15_apply, Read.val_main_v12_apply, Read.val_main_v11_apply, Read.val_main_c_apply, h,
    slt_zero_of_lt_sixteen k, select_zero]

/-- The host's accumulating scatter, at the extended reals, of a row-scatter record into a table of zeros. -/
theorem hostScatterAdd_zero_apply {N C : Nat} (wf : ScatterDims.WF ⟨2, ![16, C]⟩ ⟨2, ![N, 1]⟩ ⟨2, ![N, C]⟩ [1] [0] [0] 1)
    (d : ScatterDims ⟨2, ![16, C]⟩ ⟨2, ![N, 1]⟩ ⟨2, ![N, C]⟩) (hd : d = rowScatter 16 N C wf)
    (x : FVec Ideal ⟨2, ![16, C]⟩ .f32) (hx : ∀ i, x i = zeroW) (idx : IVec ⟨2, ![N, 1]⟩ 32)
    (upd : FVec Ideal ⟨2, ![N, C]⟩ .f32) (b : Fin 16) (c : Fin C) :
    Host.scatterAdd d x idx upd (ix2 b c) = ∑ n : Fin N, ohw (idx (ix2 n 0)) b * upd (ix2 n c) := by
  subst hd
  exact scatter_zero_apply wf x hx idx upd b c

/-- The host's gather of a row-gather record out of a table of sixteen rows. -/
theorem hostGather_apply {α : Type} {N C : Nat} (wf : GatherDims.WF ⟨2, ![16, C]⟩ ⟨2, ![N, 1]⟩ ⟨2, ![N, C]⟩ [1] [0] [] [0] [] 1 ![1, C])
    (d : GatherDims ⟨2, ![16, C]⟩ ⟨2, ![N, 1]⟩ ⟨2, ![N, C]⟩) (hd : d = rowGather 16 N C wf)
    (x : (⟨2, ![16, C]⟩ : Shape).Idx → α) (idx : IVec ⟨2, ![N, 1]⟩ 32) (n : Fin N) (c : Fin C) :
    Host.gather d x idx (ix2 n c) = x (ix2 ⟨min (idx (ix2 n 0)).toInt.toNat 15, by omega⟩ c) := by
  subst hd
  exact rowGather_apply wf (by decide) x idx n c

/-! ## The reference's stages at an index

`ids` is the id column, `x` the features; the segment words are `fun n => ids (ix1 n)`, the feature rows
`fun n k => x (ix2 n k)`.  The gathers' row function `g` enters through its one property: `g n` is the wrapped id of row
`n`, read signed and clamped into [0, 15]. -/

/-- The reference's three dimension-number records are the row scatters and the row gather above. -/
theorem scatter1_eq : scatter_S16x1_S2097152x1_S2097152x1_1_0_0_1
    = rowScatter 16 NR 1 scatter_S16x1_S2097152x1_S2097152x1_1_0_0_1_wf := rfl
theorem scatter64_eq : scatter_S16x64_S2097152x1_S2097152x64_1_0_0_1
    = rowScatter 16 NR 64 scatter_S16x64_S2097152x1_S2097152x64_1_0_0_1_wf := rfl
theorem gather64_eq : gather_S16x64_S2097152x1_S2097152x64_1_0_n_n_0_1_164
    = rowGather 16 NR 64 gather_S16x64_S2097152x1_S2097152x64_1_0_n_n_0_1_164_wf := rfl

section Stages
variable (x : S2097152x64.Idx → EReal) (ids : S2097152.Idx → BitVec 32)

theorem v0_apply (i : S2097152x1.Idx) : Read.val_main_v0 (F := Ideal) i = oneW := by
  rw [Read.val_main_v0_apply]; rfl
theorem v1_apply (i : S16x1.Idx) : Read.val_main_v1 (F := Ideal) i = zeroW := by
  rw [Read.val_main_v1_apply]; rfl
theorem v4_apply (i : S16x1.Idx) : Read.val_main_v4 (F := Ideal) i = oneW := by
  rw [Read.val_main_v4_apply]; rfl
theorem v6_apply (i : S16x64.Idx) : Read.val_main_v6 (F := Ideal) i = zeroW := by
  rw [Read.val_main_v6_apply]; rfl
theorem v20_apply (i : S16x64.Idx) : Read.val_main_v20 (F := Ideal) i = zeroW := by
  rw [Read.val_main_v20_apply]; rfl
theorem v25_apply (i : S16x64.Idx) : Read.val_main_v25 (F := Ideal) i = epsW := by
  rw [Read.val_main_v25_apply]; rfl
theorem v28_apply (i : S16x64.Idx) : Read.val_main_v28 (F := Ideal) i = oneW := by
  rw [Read.val_main_v28_apply]; rfl

/-- The id column as a one-column array reads the id of its row. -/
theorem v2_apply (n : Fin NR) : Read.val_main_v2 (F := Ideal) ids (ix2 n 0) = ids (ix1 n) := by
  rw [Read.val_main_v2_apply]
  congr 1; funext a; match a with | ⟨0, _⟩ => rfl
theorem v7_apply (n : Fin NR) : Read.val_main_v7 (F := Ideal) ids (ix2 n 0) = ids (ix1 n) := by
  rw [Read.val_main_v7_apply]
  congr 1; funext a; match a with | ⟨0, _⟩ => rfl
theorem v21_apply (n : Fin NR) : Read.val_main_v21 (F := Ideal) ids (ix2 n 0) = ids (ix1 n) := by
  rw [Read.val_main_v21_apply]
  congr 1; funext a; match a with | ⟨0, _⟩ => rfl
theorem v16_apply (n : Fin NR) : Read.val_main_v16 (F := Ideal) ids (ix2 n 0) = Read.val_main_v15 (F := Ideal) ids (ix1 n) := by
  rw [Read.val_main_v16_apply]
  congr 1; funext a; match a with | ⟨0, _⟩ => rfl
theorem v35_apply (n : Fin NR) : Read.val_main_v35 (F := Ideal) ids (ix2 n 0) = Read.val_main_v15 (F := Ideal) ids (ix1 n) := by
  rw [Read.val_main_v35_apply]
  show Read.val_main_v15 (F := Ideal) ids _ = _
  congr 1; funext a; match a with | ⟨0, _⟩ => rfl

/-- The count scatter: how many rows each segment owns. -/
theorem v3_apply (b : Fin 16) :
    Read.val_main_v3 (F := Ideal) ids (ix2 b 0) = segCount (fun n => ids (ix1 n)) b := by
  unfold Read.val_main_v3
  rw [hostScatterAdd_zero_apply _ _ scatter1_eq _ v1_apply]
  unfold segCount
  refine Finset.sum_congr rfl fun n _ => ?_
  rw [v2_apply, v0_apply, oneW_eq, mul_one]

/-- The count raised to at least one. -/
theorem v5_apply (b : Fin 16) :
    Read.val_main_v5 (F := Ideal) ids (ix2 b 0) = den (segCount (fun n => ids (ix1 n)) b) := by
  rw [Read.val_main_v5_apply, v3_apply, v4_apply]; rfl

theorem v9_apply (b : Fin 16) (c : Fin 64) :
    Read.val_main_v9 (F := Ideal) ids (ix2 b c) = den (segCount (fun n => ids (ix1 n)) b) := by
  rw [Read.val_main_v9_apply]
  have hi : Read.idx_main_v9 (ix2 b c) = ix2 b 0 := by
    funext a; match a with | ⟨0, _⟩ => rfl | ⟨1, _⟩ => rfl
  rw [hi, v5_apply]

theorem v23_apply (b : Fin 16) (c : Fin 64) :
    Read.val_main_v23 (F := Ideal) ids (ix2 b c) = den (segCount (fun n => ids (ix1 n)) b) := by
  rw [Read.val_main_v23_apply]
  have hi : Read.idx_main_v23 (ix2 b c) = ix2 b 0 := by
    funext a; match a with | ⟨0, _⟩ => rfl | ⟨1, _⟩ => rfl
  rw [hi, v5_apply]

/-- The column-sum scatter: each segment's sum of a column. -/
theorem v8_apply (b : Fin 16) (c : Fin 64) :
    Read.val_main_v8 (F := Ideal) x ids (ix2 b c) = segSum (fun n => ids (ix1 n)) (fun n => x (ix2 n c)) b := by
  unfold Read.val_main_v8
  rw [hostScatterAdd_zero_apply _ _ scatter64_eq _ v6_apply]
  unfold segSum
  refine Finset.sum_congr rfl fun n _ => ?_
  rw [v7_apply]

/-- The mean table. -/
theorem v10_apply (b : Fin 16) (c : Fin 64) :
    Read.val_main_v10 (F := Ideal) x ids (ix2 b c) = meanTab (fun n => ids (ix1 n)) (fun n k => x (ix2 n k)) b c := by
  rw [Read.val_main_v10_apply, v8_apply, v9_apply]; rfl

variable (g : Fin NR → Fin 16)
  (hg : ∀ n, min ((Read.val_main_v15 (F := Ideal) ids) (ix1 n)).toInt.toNat 15 = (g n).val)
include hg

/-- The first gather: each row's own segment mean. -/
theorem v17_apply (n : Fin NR) (c : Fin 64) :
    Read.val_main_v17 (F := Ideal) x ids (ix2 n c) = meanTab (fun n => ids (ix1 n)) (fun n k => x (ix2 n k)) (g n) c := by
  unfold Read.val_main_v17
  rw [hostGather_apply _ _ gather64_eq]
  have hr : ∀ h, (⟨min ((Read.val_main_v16 (F := Ideal) ids) (ix2 n 0)).toInt.toNat 15, h⟩ : Fin 16) = g n := by
    intro h; refine Fin.ext ?_
    show min _ _ = _
    rw [v16_apply]; exact hg n
  rw [hr, v10_apply]

/-- The deviation from the row's segment mean. -/
theorem v18_apply (n : Fin NR) (c : Fin 64) :
    Read.val_main_v18 (F := Ideal) x ids (ix2 n c) = devR (fun n => ids (ix1 n)) (fun n k => x (ix2 n k)) g n c := by
  rw [Read.val_main_v18_apply, v17_apply x ids g hg]; rfl

theorem v19_apply (n : Fin NR) (c : Fin 64) :
    Read.val_main_v19 (F := Ideal) x ids (ix2 n c)
      = devR (fun n => ids (ix1 n)) (fun n k => x (ix2 n k)) g n c * devR (fun n => ids (ix1 n)) (fun n k => x (ix2 n k)) g n c := by
  rw [Read.val_main_v19_apply, v18_apply x ids g hg]; rfl

/-- The squared-deviation scatter: each segment's sum of a column's squared deviations. -/
theorem v22_apply (b : Fin 16) (c : Fin 64) :
    Read.val_main_v22 (F := Ideal) x ids (ix2 b c)
      = segSum (fun n => ids (ix1 n))
          (fun n => devR (fun n => ids (ix1 n)) (fun n k => x (ix2 n k)) g n c * devR (fun n => ids (ix1 n)) (fun n k => x (ix2 n k)) g n c) b := by
  unfold Read.val_main_v22
  rw [hostScatterAdd_zero_apply _ _ scatter64_eq _ v20_apply]
  unfold segSum
  refine Finset.sum_congr rfl fun n _ => ?_
  rw [v21_apply, v19_apply x ids g hg]

/-- The variance table. -/
theorem v24_apply (b : Fin 16) (c : Fin 64) :
    Read.val_main_v24 (F := Ideal) x ids (ix2 b c) = varTabR (fun n => ids (ix1 n)) (fun n k => x (ix2 n k)) g b c := by
  rw [Read.val_main_v24_apply, v22_apply x ids g hg, v23_apply]; rfl

/-- The reciprocal-deviation table. -/
theorem v29_apply (b : Fin 16) (c : Fin 64) :
    Read.val_main_v29 (F := Ideal) x ids (ix2 b c) = invStd (varTabR (fun n => ids (ix1 n)) (fun n k => x (ix2 n k)) g b c) := by
  rw [Read.val_main_v29_apply, Read.val_main_v27_apply, Read.val_main_v26_apply, v24_apply x ids g hg, v25_apply, v28_apply,
    Ideal.hostDivf_def, Ideal.hostUnary_sqrt_def, Ideal.addf_def] <;> rfl

/-- The second gather: each row's own segment's reciprocal deviation. -/
theorem v36_apply (n : Fin NR) (c : Fin 64) :
    Read.val_main_v36 (F := Ideal) x ids (ix2 n c)
      = invStd (varTabR (fun n => ids (ix1 n)) (fun n k => x (ix2 n k)) g (g n) c) := by
  unfold Read.val_main_v36
  rw [hostGather_apply _ _ gather64_eq]
  have hr : ∀ h, (⟨min ((Read.val_main_v35 (F := Ideal) ids) (ix2 n 0)).toInt.toNat 15, h⟩ : Fin 16) = g n := by
    intro h; refine Fin.ext ?_
    show min _ _ = _
    rw [v35_apply]; exact hg n
  rw [hr, v29_apply x ids g hg]

/-- The result at `(n, c)` is the normalised row. -/
theorem v41_apply (wt bs : S1x64.Idx → EReal) (n : Fin NR) (c : Fin 64) :
    Read.val_main_v41 (F := Ideal) x ids wt bs (ix2 n c)
      = rowR (fun n => ids (ix1 n)) (fun n k => x (ix2 n k)) g (fun k => wt (ix2 0 k)) (fun k => bs (ix2 0 k)) n c := by
  rw [Read.val_main_v41_apply, Read.val_main_v39_apply, Read.val_main_v37_apply, v18_apply x ids g hg, v36_apply x ids g hg,
    Read.val_main_v38_apply, Read.val_main_v40_apply]
  have h38 : Read.idx_main_v38 (ix2 n c) = ix2 0 c := by
    funext a; match a with | ⟨0, _⟩ => rfl | ⟨1, _⟩ => rfl
  have h40 : Read.idx_main_v40 (ix2 n c) = ix2 0 c := by
    funext a; match a with | ⟨0, _⟩ => rfl | ⟨1, _⟩ => rfl
  rw [h38, h40]; rfl

end Stages

/-- The table row the reference's gathers read for row `n`: the wrapped id, read signed, clamped into [0, 15]. -/
def gRow (ids : S2097152.Idx → BitVec 32) (n : Fin NR) : Fin 16 :=
  ⟨min ((Read.val_main_v15 (F := Ideal) ids) (ix1 n)).toInt.toNat 15, by omega⟩

/-- An in-range id reads its own row. -/
theorem gRow_of_eq (ids : S2097152.Idx → BitVec 32) (n : Fin NR) (k : Fin 16) (h : ids (ix1 n) = BitVec.ofNat 32 k.val) :
    gRow ids n = k := by
  unfold gRow
  refine Fin.ext ?_
  show min ((Read.val_main_v15 (F := Ideal) ids) (ix1 n)).toInt.toNat 15 = k.val
  rw [wrapped_of_eq ids n k h, StableHlo.Predicate.toInt_ofNat_small _ (by have := k.isLt; omega), Int.toNat_natCast]
  have := k.isLt
  omega

variable (m : (ℓ : Loc nD τ sig) → Buf (Elt Ideal) ℓ)

/-- The arguments, typed. -/
abbrev idsOf (c : Dev nD) : S2097152.Idx → BitVec 32 := m ((c.tc : Thread nD τ).loc main_arg1)
abbrev xOf (c : Dev nD) : Fin NR → Fin 64 → EReal := fun n k => (m ((c.tc : Thread nD τ).loc main_arg0) : S2097152x64.Idx → EReal) (ix2 n k)
abbrev wtOf (c : Dev nD) : Fin 64 → EReal := fun k => (m ((c.tc : Thread nD τ).loc main_arg2) : S1x64.Idx → EReal) (ix2 0 k)
abbrev bsOf (c : Dev nD) : Fin 64 → EReal := fun k => (m ((c.tc : Thread nD τ).loc main_arg3) : S1x64.Idx → EReal) (ix2 0 k)

/-- The reference's result array, as ONE function of the arguments. -/
abbrev refRes (c : Dev nD) : Buf (Elt Ideal) ((c.tc : Thread nD τ).loc main_v41) :=
  fun i => rowR (fun n => idsOf m c (ix1 n)) (xOf m c) (gRow (idsOf m c)) (wtOf m c) (bsOf m c) (i 0) (i 1)

theorem ref_value (c : Dev nD) : Value.res_out0 (F := Ideal) m c = refRes m c := by
  funext i
  obtain ⟨n, k, rfl⟩ : ∃ (n : Fin NR) (k : Fin 64), i = ix2 n k := ⟨i 0, i 1, eq_ix2 i⟩
  show Value.res_main_v41 m c (ix2 n k) = _
  rw [Read.val_main_v41_eq]
  exact v41_apply _ _ (gRow _) (fun _ => rfl) _ _ n k

end Cert.ReferenceIdeal.RefValue

end
-- ==== Proof.Bridge.lean ====
/-
  The two forms of the normalised row agree on real inputs whose segment words are in range.

  Where every row's word names its own segment `g n` (one of the sixteen), summing a table against the row's
  indicator picks the table's row `g n` (`0 * y = 0` and `1 * y = y` hold for every extended real).  Where, besides,
  every feature is a real number, a segment's two variances agree: with `k` the segment's row count raised to at
  least one, `s` its column sum, `q` its column sum of squares and `mu = s / k`, the mean of the squared deviations
  is `(q - 2 mu s + (count) mu^2) / k = q / k - mu^2` — for an empty segment both sides are `0`, for a non-empty one
  `k` IS the count —, and this is non-negative, so cutting it off below at zero changes nothing.
-/
import proofs.«425874_j13881334301293_2_alg».proof.Proof.Spec
import Mathlib.Data.EReal.Basic
import Mathlib.Data.EReal.Operations
import Mathlib.Data.EReal.Inv
import Mathlib.Algebra.BigOperators.Group.Finset.Basic
import Mathlib.Algebra.Order.BigOperators.Ring.Finset
import Mathlib.Tactic.FieldSimp
import Mathlib.Tactic.Ring
import Mathlib.Tactic.Linarith

noncomputable section

namespace Cert.Seg

open Idealize.ShloMosaic

/-- Two segment numbers below sixteen have the same 32-bit word only if they are the same number. -/
theorem ofNat_fin16_inj (g k : Fin 16) : BitVec.ofNat 32 g.val = BitVec.ofNat 32 k.val ↔ g = k := by
  constructor
  · intro h
    have h2 := congrArg BitVec.toNat h
    simp only [BitVec.toNat_ofNat] at h2
    apply Fin.ext
    omega
  · rintro rfl
    rfl

/-- The indicator of a word that names segment `g`, read on segment numbers. -/
theorem ohw_eq_ite (v : BitVec 32) (g k : Fin 16) (hv : v = BitVec.ofNat 32 g.val) :
    ohw v k = if g = k then 1 else 0 := by
  unfold ohw
  subst hv
  by_cases h : g = k
  · rw [if_pos ((ofNat_fin16_inj g k).mpr h), if_pos h]
  · rw [if_neg (fun h' => h ((ofNat_fin16_inj g k).mp h')), if_neg h]

/-- Summing a table against the indicator of a row whose word names segment `g` picks the table's row `g`. -/
theorem sum_ohw_mul (v : BitVec 32) (g : Fin 16) (hv : v = BitVec.ofNat 32 g.val) (T : Fin 16 → EReal) :
    ∑ k : Fin 16, ohw v k * T k = T g := by
  rw [Finset.sum_eq_single g]
  · rw [ohw_eq_ite v g g hv, if_pos rfl, one_mul]
  · intro k _ hk
    rw [ohw_eq_ite v g k hv, if_neg (Ne.symm hk), zero_mul]
  · intro h
    exact absurd (Finset.mem_univ g) h

/-- The coercion of the reals into the extended reals carries a finite sum to the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion carries the larger of two reals to the larger of the coercions. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A segment's sum only sees the rows the segment owns. -/
theorem segSum_congr (w : Fin NR → BitVec 32) (g : Fin NR → Fin 16) (hg : ∀ n, w n = BitVec.ofNat 32 (g n).val)
    (b : Fin 16) (f f' : Fin NR → EReal) (hf : ∀ n, g n = b → f n = f' n) : segSum w f b = segSum w f' b := by
  unfold segSum
  refine Finset.sum_congr rfl fun n _ => ?_
  rw [ohw_eq_ite (w n) (g n) b (hg n)]
  by_cases h : g n = b
  · rw [hf n h]
  · rw [if_neg h, zero_mul, zero_mul]

/-- A segment's sum of real numbers is the real sum over the rows it owns. -/
theorem segSum_coe (w : Fin NR → BitVec 32) (g : Fin NR → Fin 16) (hg : ∀ n, w n = BitVec.ofNat 32 (g n).val)
    (b : Fin 16) (f : Fin NR → ℝ) :
    segSum w (fun n => (f n : EReal)) b = ((∑ n ∈ Finset.univ.filter (fun n => g n = b), f n : ℝ) : EReal) := by
  unfold segSum
  rw [coe_finset_sum, Finset.sum_filter]
  refine Finset.sum_congr rfl fun n _ => ?_
  rw [ohw_eq_ite (w n) (g n) b (hg n)]
  by_cases h : g n = b
  · rw [if_pos h, if_pos h, one_mul]
  · rw [if_neg h, if_neg h, zero_mul]

/-- A segment's row count is the number of rows it owns. -/
theorem segCount_coe (w : Fin NR → BitVec 32) (g : Fin NR → Fin 16) (hg : ∀ n, w n = BitVec.ofNat 32 (g n).val)
    (b : Fin 16) :
    segCount w b = (((Finset.univ.filter (fun n => g n = b)).card : ℝ) : EReal) := by
  have h1 : segCount w b = segSum w (fun _ => ((1 : ℝ) : EReal)) b := by
    unfold segCount segSum
    refine Finset.sum_congr rfl fun n _ => ?_
    rw [EReal.coe_one, mul_one]
  rw [h1, segSum_coe w g hg b (fun _ => (1 : ℝ)), Finset.sum_const, nsmul_eq_mul, mul_one]

/-- The variance law over a finite family of reals: with `d` the family's size raised to at least one and
    `mu` the sum over `d`, the mean of the squares less `mu^2` is the mean of the squared deviations from `mu`. -/
theorem mean_sq_sub_sq_mean {ι : Type} (S : Finset ι) (xr : ι → ℝ) (d mu : ℝ) (hd : d = max (S.card : ℝ) 1)
    (hmu : mu = (∑ n ∈ S, xr n) * (1 / d)) :
    (∑ n ∈ S, xr n * xr n) * (1 / d) - mu * mu = (∑ n ∈ S, (xr n - mu) * (xr n - mu)) * (1 / d) := by
  have hexp : ∑ n ∈ S, (xr n - mu) * (xr n - mu)
      = (∑ n ∈ S, xr n * xr n) - 2 * mu * (∑ n ∈ S, xr n) + (S.card : ℝ) * (mu * mu) := by
    have h1 : ∀ n ∈ S, (xr n - mu) * (xr n - mu) = xr n * xr n - 2 * mu * xr n + mu * mu := fun n _ => by ring
    rw [Finset.sum_congr rfl h1, Finset.sum_add_distrib, Finset.sum_sub_distrib, ← Finset.mul_sum, Finset.sum_const,
      nsmul_eq_mul]
  rw [hexp]
  rcases S.eq_empty_or_nonempty with hS | hS
  · subst hS
    simp only [Finset.sum_empty, zero_mul] at hmu
    subst hmu
    simp
  · have hc : (1 : ℝ) ≤ (S.card : ℝ) := by exact_mod_cast hS.card_pos
    have hd' : (S.card : ℝ) = d := by rw [hd, max_eq_left hc]
    have hdpos : (0 : ℝ) < d := by rw [← hd']; linarith
    have hdne : d ≠ 0 := ne_of_gt hdpos
    rw [hd', hmu]
    field_simp
    ring

/-- On real features with in-range words, the cut-off "mean of squares less squared mean" IS the mean of the squared
    deviations, segment by segment and column by column. -/
theorem varTabK_eq_varTabR (w : Fin NR → BitVec 32) (x : Fin NR → Fin 64 → EReal) (g : Fin NR → Fin 16)
    (hg : ∀ n, w n = BitVec.ofNat 32 (g n).val) (hx : ∀ n c, ∃ r : ℝ, x n c = (r : EReal)) (b : Fin 16) (c : Fin 64) :
    varTabK w x b c = varTabR w x g b c := by
  choose r hr using hx
  -- the rows segment `b` owns, its divisor `d`, its column sum `s` and its mean `mu`, all real
  obtain ⟨S, hS⟩ : ∃ S : Finset (Fin NR), S = Finset.univ.filter (fun n => g n = b) := ⟨_, rfl⟩
  obtain ⟨d, hd⟩ : ∃ d : ℝ, d = max (S.card : ℝ) 1 := ⟨_, rfl⟩
  obtain ⟨mu, hmu⟩ : ∃ mu : ℝ, mu = (∑ n ∈ S, r n c) * (1 / d) := ⟨_, rfl⟩
  have hdpos : (0 : ℝ) < d := by rw [hd]; exact lt_of_lt_of_le one_pos (le_max_right _ _)
  have hdne : d ≠ 0 := ne_of_gt hdpos
  have hden : den (segCount w b) = (d : EReal) := by
    rw [den, segCount_coe w g hg b, oneW_eq, ← EReal.coe_one, coe_max_real, ← hS, ← hd]
  have hmean : meanTab w x b c = (mu : EReal) := by
    have hxc : (fun n => x n c) = fun n => ((r n c : ℝ) : EReal) := funext fun n => hr n c
    rw [meanTab, hden, hxc, segSum_coe w g hg b, Ideal.div_coe hdne, ← EReal.coe_mul, ← hS, ← hmu]
  have hsq : segSum w (fun n => x n c * x n c) b = ((∑ n ∈ S, r n c * r n c : ℝ) : EReal) := by
    have hxc : (fun n => x n c * x n c) = fun n => ((r n c * r n c : ℝ) : EReal) :=
      funext fun n => by rw [hr n c, EReal.coe_mul]
    rw [hxc, segSum_coe w g hg b, ← hS]
  have hdev : segSum w (fun n => devR w x g n c * devR w x g n c) b
      = ((∑ n ∈ S, (r n c - mu) * (r n c - mu) : ℝ) : EReal) := by
    rw [segSum_congr w g hg b _ (fun n => (((r n c - mu) * (r n c - mu) : ℝ) : EReal)), segSum_coe w g hg b, ← hS]
    intro n hn
    rw [devR, hn, hmean, hr n c, ← EReal.coe_sub, ← EReal.coe_mul]
  rw [varTabK, varTabR, hden, hmean, hsq, hdev, Ideal.div_coe hdne, Ideal.div_coe hdne, zeroW_eq,
    ← EReal.coe_mul, ← EReal.coe_mul, ← EReal.coe_mul, ← EReal.coe_sub,
    mean_sq_sub_sq_mean S (fun n => r n c) d mu hd hmu]
  apply max_eq_left
  rw [EReal.coe_nonneg]
  apply mul_nonneg
  · exact Finset.sum_nonneg fun n _ => mul_self_nonneg _
  · exact le_of_lt (one_div_pos.mpr hdpos)

/-- So the two normalised rows are one extended real. -/
theorem rowK_eq_rowR (w : Fin NR → BitVec 32) (x : Fin NR → Fin 64 → EReal) (g : Fin NR → Fin 16) (wt bs : Fin 64 → EReal)
    (hg : ∀ n, w n = BitVec.ofNat 32 (g n).val) (hx : ∀ n c, ∃ r : ℝ, x n c = (r : EReal)) (n : Fin NR) (c : Fin 64) :
    rowK w x wt bs n c = rowR w x g wt bs n c := by
  rw [rowK, rowR, devR, sum_ohw_mul (w n) (g n) (hg n) (fun k => meanTab w x k c),
    sum_ohw_mul (w n) (g n) (hg n) (fun k => invStd (varTabK w x k c)), varTabK_eq_varTabR w x g hg hx (g n) c]

end Cert.Seg

end
-- ==== Proof.PreFacts.lean ====
/-
  What the precondition says of the arguments: every feature is a real number, and every id is one of 0 .. 15.

  The printed predicate is a conjunction of five "all" reductions; the first says every `|feature|` is below
  `+inf`, so every feature is a real; the last two say every id is `>= 0` and `< 16` as signed words, so it is the
  word of a number below sixteen.
-/
import proofs.«425874_j13881334301293_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The shape of a scalar has one index. -/
instance subsingleton_scalar_idx : Subsingleton S_.Idx := ⟨fun a b => funext fun d => d.elim0⟩

/-- An extended real whose absolute value is below `+inf` is a real number. -/
theorem real_of_abs_lt_top (x : EReal) (hx : max x (-x) < ⊤) : ∃ r : ℝ, x = (r : EReal) := by
  induction x using EReal.rec with
  | bot => simp at hx
  | top => simp at hx
  | coe r => exact ⟨r, rfl⟩

/-- A 32-bit word that is at least 0 and below 16 as a signed number is the word of a number below sixteen. -/
theorem word_of_signed_range (v : BitVec 32) (h0 : IntOp.cmpi .sge v 0#32 = 1#1) (h16 : IntOp.cmpi .slt v 16#32 = 1#1) :
    ∃ k : Fin 16, v = BitVec.ofNat 32 k.val := by
  unfold IntOp.cmpi at h0 h16
  rw [StableHlo.Predicate.ofBool_eq_one_iff] at h0 h16
  simp only [BitVec.slt, BitVec.sle, decide_eq_true_eq] at h0 h16
  have hlt := v.isLt
  have hv : v.toNat < 16 := by
    have hc := BitVec.toInt_eq_toNat_cond v
    have z : (0#32 : BitVec 32).toInt = 0 := by decide
    have s : (16#32 : BitVec 32).toInt = 16 := by decide
    rw [z] at h0
    rw [s] at h16
    split at hc <;> omega
  refine ⟨⟨v.toNat, hv⟩, ?_⟩
  apply BitVec.eq_of_toNat_eq
  simp only [BitVec.toNat_ofNat]
  omega

theorem facts_of_pre (a0 : FVec Ideal S2097152x64 .f32) (a1 : IVec S2097152 32) (a2 a3 : FVec Ideal S1x64 .f32)
    (h : Cert.Pre_finite_inputs.fn (F := Ideal) a0 a1 a2 a3 = fun _ => 1#1) :
    (∀ i, ∃ r : ℝ, a0 i = (r : EReal))
      ∧ ∀ n : Fin 2097152, ∃ k : Fin 16, a1 (ix1 n) = BitVec.ofNat 32 k.val := by
  have e := congrFun h ValueIdx.ix0
  dsimp only [Cert.Pre_finite_inputs.fn, Cert.Pre_finite_inputs.fn_part1] at e
  -- the five conjuncts
  obtain ⟨e1, eLt⟩ := IntOp.andi_eq_one.1 e
  obtain ⟨e2, eGe⟩ := IntOp.andi_eq_one.1 e1
  obtain ⟨e3, -⟩ := IntOp.andi_eq_one.1 e2
  obtain ⟨eFin, -⟩ := IntOp.andi_eq_one.1 e3
  refine ⟨fun i => ?_, fun n => ?_⟩
  · have hi := Host.reduce_andi_all _ _ _ _ ix0 eFin i
    have hi' : Ideal.cmp .olt (max (a0 i) (-(a0 i))) (Ideal.ofBits .f32 0x7F800000#32) = 1#1 := hi
    have htop : Ideal.ofBits .f32 0x7F800000#32 = ⊤ := by simp [Ideal.ofBits, Ideal.ieee]
    rw [htop] at hi'
    unfold Ideal.cmp at hi'
    rw [StableHlo.Predicate.ofBool_eq_one_iff] at hi'
    simp only [decide_eq_true_eq] at hi'
    exact real_of_abs_lt_top _ hi'
  · have h0 : IntOp.cmpi .sge (a1 (ix1 n)) 0#32 = 1#1 := Host.reduce_andi_all _ _ _ _ ix0 eGe (ix1 n)
    have h16 : IntOp.cmpi .slt (a1 (ix1 n)) 16#32 = 1#1 := Host.reduce_andi_all _ _ _ _ ix0 eLt (ix1 n)
    exact word_of_signed_range _ h0 h16

end Cert.PreFacts

end
-- ==== Proof.lean ====
/-
  Per-instance normalisation of a feature table by segment: the idealized kernel and the idealized reference compute
  the same extended reals.

  The kernel makes one pass that accumulates, per segment and column, the sum, the sum of squares and the row count,
  forms the mean and the variance as "mean of squares less squared mean, cut off below at zero", and a second pass that
  subtracts the row's segment mean, multiplies by the segment's reciprocal deviation, by the weight, and adds the
  bias — picking the segment's table rows by a one-hot product.  The reference forms the variance as the mean of the
  squared deviations and picks the table rows by indexing.  Under the precondition (every feature a real number, every
  id one of 0 .. 15) the one-hot product picks exactly the indexed row, and the two variances agree on the reals
  (they differ by `2 mu (s / k - mu) = 0`, and the common value is non-negative).  The three frames are the generated
  frame certificates and the reference's generated run; the idealization rewrote nothing.
-/
import proofs.«425874_j13881334301293_2_alg».proof.Defs
import proofs.«425874_j13881334301293_2_alg».proof.Proof.Gen.Kernel
import proofs.«425874_j13881334301293_2_alg».proof.Proof.Gen.Kernel.Skeleton
import proofs.«425874_j13881334301293_2_alg».proof.Proof.Gen.Kernel.Launch
import proofs.«425874_j13881334301293_2_alg».proof.Proof.Gen.Kernel.Points
import proofs.«425874_j13881334301293_2_alg».proof.Proof.Gen.Kernel.Frame
import proofs.«425874_j13881334301293_2_alg».proof.Proof.Gen.KernelIdeal
import proofs.«425874_j13881334301293_2_alg».proof.Proof.Gen.KernelIdeal.Skeleton
import proofs.«425874_j13881334301293_2_alg».proof.Proof.Gen.KernelIdeal.Launch
import proofs.«425874_j13881334301293_2_alg».proof.Proof.Gen.KernelIdeal.Points
import proofs.«425874_j13881334301293_2_alg».proof.Proof.Gen.KernelIdeal.Frame
import proofs.«425874_j13881334301293_2_alg».proof.Proof.Gen.ReferenceIdeal
import proofs.«425874_j13881334301293_2_alg».proof.Proof.Gen.ReferenceIdeal.Run
import proofs.«425874_j13881334301293_2_alg».proof.Proof.Gen.ReferenceIdeal.Read
import proofs.«425874_j13881334301293_2_alg».proof.Proof.Gen.Pre_finite_inputs
import proofs.«425874_j13881334301293_2_alg».proof.Proof.KRun
import proofs.«425874_j13881334301293_2_alg».proof.Proof.KValue
import proofs.«425874_j13881334301293_2_alg».proof.Proof.RefValue
import proofs.«425874_j13881334301293_2_alg».proof.Proof.Bridge
import proofs.«425874_j13881334301293_2_alg».proof.Proof.PreFacts
import Idealize.ShloMosaic.Adequacy
import Idealize.ShloMosaic.Init

noncomputable section

namespace Cert.Proof

open Idealize.ShloMosaic Idealize.SL.Sem Idealize.ShloMosaic.ValueIdx Cert.Seg

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the normalised rows of arguments that agree: `rowK` for the kernel, `rowR`
    for the reference, one extended real under the precondition. -/
theorem algebraic : Cert.algebraic_KernelIdeal_ReferenceIdeal := by
  intro m ρ m' ρ' hpre hagree
  refine ⟨fun c => Cert.KernelIdeal.KValue.kerRes m c, ?_, ?_⟩
  · exact (θ_run Cert.KernelIdeal.defs _ _).mono
      (fun _ h c => ⟨(h c).1.trans (Cert.KernelIdeal.KValue.kernel_value m ρ c), (h c).2⟩)
      (Cert.KernelIdeal.Gen.run_value m ρ)
  · refine (θ_run Cert.ReferenceIdeal.defs _ _).mono (fun _ h c => ⟨(h c).1.trans ?_, (h c).2⟩)
      (Cert.ReferenceIdeal.Value.run (F := Ideal) m' ρ')
    obtain ⟨hreal, hrange⟩ := Cert.PreFacts.facts_of_pre _ _ _ _ (hpre c)
    refine (Cert.ReferenceIdeal.RefValue.ref_value m' c).trans ?_
    funext i
    show rowR (fun n => Cert.ReferenceIdeal.RefValue.idsOf m' c (ix1 n)) (Cert.ReferenceIdeal.RefValue.xOf m' c)
        (Cert.ReferenceIdeal.RefValue.gRow (Cert.ReferenceIdeal.RefValue.idsOf m' c)) (Cert.ReferenceIdeal.RefValue.wtOf m' c)
        (Cert.ReferenceIdeal.RefValue.bsOf m' c) (i 0) (i 1)
      = rowK (Cert.KernelIdeal.KValue.wOf m c) (Cert.KernelIdeal.KValue.xOf m c) (Cert.KernelIdeal.KValue.wtOf m c)
        (Cert.KernelIdeal.KValue.bsOf m c) (i 0) (i 1)
    have e1 : Cert.ReferenceIdeal.RefValue.idsOf m' c = Cert.KernelIdeal.KValue.idsOf m c := (hagree c).2.1
    have e0 : Cert.ReferenceIdeal.RefValue.xOf m' c = Cert.KernelIdeal.KValue.xOf m c := by
      funext n k; exact congrFun (hagree c).1 (ix2 n k)
    have e2 : Cert.ReferenceIdeal.RefValue.wtOf m' c = Cert.KernelIdeal.KValue.wtOf m c := by
      funext k; exact congrFun (hagree c).2.2.1 (ix2 0 k)
    have e3 : Cert.ReferenceIdeal.RefValue.bsOf m' c = Cert.KernelIdeal.KValue.bsOf m c := by
      funext k; exact congrFun (hagree c).2.2.2 (ix2 0 k)
    rw [e0, e1, e2, e3]
    refine (rowK_eq_rowR (Cert.KernelIdeal.KValue.wOf m c) (Cert.KernelIdeal.KValue.xOf m c)
      (Cert.ReferenceIdeal.RefValue.gRow (Cert.KernelIdeal.KValue.idsOf m c)) (Cert.KernelIdeal.KValue.wtOf m c)
      (Cert.KernelIdeal.KValue.bsOf m c) (fun n => ?_) (fun n k => hreal (ix2 n k)) (i 0) (i 1)).symm
    obtain ⟨k, hk⟩ := hrange n
    rw [Cert.ReferenceIdeal.RefValue.gRow_of_eq _ n k hk]
    exact hk

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
